-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S64x10 : Shape := ⟨2, ![64, 10]⟩
abbrev S10 : Shape := ⟨1, ![10]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part4 {F : FTy → Type} [FloatOps F] (main_v64 : IVec S_ 1) (main_v68 : IVec S1600000 1) : IVec S_ 1 :=
  let main_c_25 : IVec S_ 1 := constantI S_ 1 1#1
  let main_v69 : IVec S_ 1 := (fun x v => Host.reduce IntOp.andi x v reducesTo_S1600000_S_d0 h_S_) main_v68 main_c_25
  let main_v70 : IVec S_ 1 := andi main_v64 main_v69
  main_v70

def fn_part3 {F : FTy → Type} [FloatOps F] (main_arg1 : IVec S2x1600000 32) (main_arg12 : FVec F S10 .f32) (main_v48 : IVec S_ 1) (main_v49 : FVec F S64x10 .f32) (main_v50 : FVec F S64x10 .f32) : IVec S_ 1 :=
  let main_v51 : IVec S64x10 1 := cmpf .olt main_v49 main_v50
  let main_c_19 : IVec S_ 1 := constantI S_ 1 1#1
  let main_v52 : IVec S_ 1 := (fun x v => Host.reduce IntOp.andi x v reducesTo_S64x10_S_d0_1 h_S_) main_v51 main_c_19
  let main_v53 : IVec S_ 1 := andi main_v48 main_v52
  let main_v54 : FVec F S10 .f32 := Host.absf main_arg12
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  let main_v59 : IVec S1x1600000 32 := (extractStridedSlice S1x1600000 ![0, 0] · slices_S2x1600000_S1x1600000_0_0) main_arg1
  let main_v60 : IVec S1600000 32 := shapeCast S1600000 main_v59 shapeCasts_S1x1600000_S1600000
  let main_c_22 : IVec S_ 32 := constantI S_ 32 4294867296#32
  let main_v61 : IVec S1600000 32 := broadcastInDim S1600000 ![] bcast_S_S1600000 main_c_22
  let main_v62 : IVec S1600000 1 := cmpi .sge main_v60 main_v61
  let main_c_23 : IVec S_ 1 := constantI S_ 1 1#1
  let main_v63 : IVec S_ 1 := (fun x v => Host.reduce IntOp.andi x v reducesTo_S1600000_S_d0 h_S_) main_v62 main_c_23
  let main_v64 : IVec S_ 1 := andi main_v58 main_v63
  let main_v65 : IVec S1x1600000 32 := (extractStridedSlice S1x1600000 ![0, 0] · slices_S2x1600000_S1x1600000_0_0) main_arg1
  let main_v66 : IVec S1600000 32 := shapeCast S1600000 main_v65 shapeCasts_S1x1600000_S1600000
  let main_c_24 : IVec S_ 32 := constantI S_ 32 100000#32
  let main_v67 : IVec S1600000 32 := broadcastInDim S1600000 ![] bcast_S_S1600000 main_c_24
  let main_v68 : IVec S1600000 1 := cmpi .slt main_v66 main_v67
  fn_part4 (F := F) main_v64 main_v68

def fn_part2 {F : FTy → Type} [FloatOps F] (main_arg1 : IVec S2x1600000 32) (main_arg8 : FVec F S128x64 .f32) (main_arg9 : FVec F S128x64 .f32) (main_arg10 : FVec F S64 .f32) (main_arg11 : FVec F S64x10 .f32) (main_arg12 : FVec F S10 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x10 .f32 := Host.absf main_arg11
  let main_cst_18 : FVec F S_ .f32 := constant S_ .f32 0x7F800000#32
  let main_v50 : FVec F S64x10 .f32 := broadcastInDim S64x10 ![] bcast_S_S64x10 main_cst_18
  fn_part3 (F := F) main_arg1 main_arg12 main_v48 main_v49 main_v50

def fn_part1 {F : FTy → Type} [FloatOps F] (main_arg1 : IVec S2x1600000 32) (main_arg5 : FVec F S64x128 .f32) (main_arg6 : FVec F S64x128 .f32) (main_arg7 : FVec F S128 .f32) (main_arg8 : FVec F S128x64 .f32) (main_arg9 : FVec F S128x64 .f32) (main_arg10 : FVec F S64 .f32) (main_arg11 : FVec F S64x10 .f32) (main_arg12 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S100000x128 .f32) (main_arg1 : IVec S2x1600000 32) (main_arg2 : FVec F S128x64 .f32) (main_arg3 : FVec F S128x64 .f32) (main_arg4 : FVec F S64 .f32) (main_arg5 : FVec F S64x128 .f32) (main_arg6 : FVec F S64x128 .f32) (main_arg7 : FVec F S128 .f32) (main_arg8 : FVec F S128x64 .f32) (main_arg9 : FVec F S128x64 .f32) (main_arg10 : FVec F S64 .f32) (main_arg11 : FVec F S64x10 .f32) (main_arg12 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S100000x1 : Shape := ⟨2, ![100000, 1]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S1x128 : Shape := ⟨2, ![1, 128]⟩
abbrev S1x10 : Shape := ⟨2, ![1, 10]⟩
abbrev S100000x10 : Shape := ⟨2, ![100000, 10]⟩
abbrev S5000x10 : Shape := ⟨2, ![5000, 10]⟩

abbrev nBuf : Space → Nat
  | .hbm => 126
  | .vmem => 29
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S64x128, .f32⟩
  | .hbm, ⟨6, _⟩ => ⟨S64x128, .f32⟩
  | .hbm, ⟨7, _⟩ => ⟨S128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S64x10, .f32⟩
  | .hbm, ⟨12, _⟩ => ⟨S10, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1, .i32⟩
  | .hbm, ⟨38, _⟩ => ⟨S_, .i32⟩
  | .hbm, ⟨39, _⟩ => ⟨S1600000x1, .i32⟩
  | .hbm, ⟨40, _⟩ => ⟨S1600000x1, .i1⟩
  | .hbm, ⟨41, _⟩ => ⟨S1x1, .i32⟩
  | .hbm, ⟨42, _⟩ => ⟨S1600000x1, .i32⟩
  | .hbm, ⟨43, _⟩ => ⟨S1600000x1, .i1⟩
  | .hbm, ⟨44, _⟩ => ⟨S1600000x1, .i1⟩
  | .hbm, ⟨45, _⟩ => ⟨S_, .i1⟩
  | .hbm, ⟨46, _⟩ => ⟨S1600000, .i1⟩
  | .hbm, ⟨47, _⟩ => ⟨S1600000x128, .f32⟩
  | .hbm, ⟨48, _⟩ => ⟨S1600000x128, .i1⟩
  | .hbm, ⟨49, _⟩ => ⟨S_, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000x1, .f32⟩
  | .hbm, ⟨57, _⟩ => ⟨S100000x128, .f32⟩
  | .hbm, ⟨58, _⟩ => ⟨S100000x128, .f32⟩
  | .hbm, ⟨59, _⟩ => ⟨S1x64, .f32⟩
  | .hbm, ⟨60, _⟩ => ⟨S100000x64, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1, .i32⟩
  | .hbm, ⟨70, _⟩ => ⟨S_, .i32⟩
  | .hbm, ⟨71, _⟩ => ⟨S1600000x1, .i32⟩
  | .hbm, ⟨72, _⟩ => ⟨S1600000x1, .i1⟩
  | .hbm, ⟨73, _⟩ => ⟨S1x1, .i32⟩
  | .hbm, ⟨74, _⟩ => ⟨S1600000x1, .i32⟩
  | .hbm, ⟨75, _⟩ => ⟨S1600000x1, .i1⟩
  | .hbm, ⟨76, _⟩ => ⟨S1600000x1, .i1⟩
  | .hbm, ⟨77, _⟩ => ⟨S_, .i1⟩
  | .hbm, ⟨78, _⟩ => ⟨S1600000, .i1⟩
  | .hbm, ⟨79, _⟩ => ⟨S1600000x64, .f32⟩
  | .hbm, ⟨80, _⟩ => ⟨S1600000x64, .i1⟩
  | .hbm, ⟨81, _⟩ => ⟨S_, .f32⟩
  | .hbm, ⟨82, _⟩ => ⟨S1600000x64, .f32⟩
  | .hbm, ⟨83, _⟩ => ⟨S1600000x64, .f32⟩
  | .hbm, ⟨84, _⟩ => ⟨S_, .f32⟩
  | .hbm, ⟨85, _⟩ => ⟨S100000x64, .f32⟩
  | .hbm, ⟨86, _⟩ => ⟨S1600000x1, .i32⟩
  | .hbm, ⟨87, _⟩ => ⟨S100000x64, .f32⟩
  | .hbm, ⟨88, _⟩ => ⟨S100000x1, .f32⟩
  | .hbm, ⟨89, _⟩ => ⟨S100000x64, .f32⟩
  | .hbm, ⟨90, _⟩ => ⟨S100000x64, .f32⟩
  | .hbm, ⟨91, _⟩ => ⟨S1x128, .f32⟩
  | .hbm, ⟨92, _⟩ => ⟨S100000x128, .f32⟩
  | .hbm, ⟨93, _⟩ => ⟨S_, .i32⟩
  | .hbm, ⟨94, _⟩ => ⟨S1600000, .i32⟩
  | .hbm, ⟨95, _⟩ => ⟨S1600000, .i1⟩
  | .hbm, ⟨96, _⟩ => ⟨S_, .i32⟩
  | .hbm, ⟨97, _⟩ => ⟨S1600000, .i32⟩
  | .hbm, ⟨98, _⟩ => ⟨S1600000, .i32⟩
  | .hbm, ⟨99, _⟩ => ⟨S1600000, .i32⟩
  | .hbm, ⟨100, _⟩ => ⟨S1600000x1, .i32⟩
  | .hbm, ⟨101, _⟩ => ⟨S1, .i32⟩
  | .hbm, ⟨102, _⟩ => ⟨S_, .i32⟩
  | .hbm, ⟨103, _⟩ => ⟨S1600000x1, .i32⟩
  | .hbm, ⟨104, _⟩ => ⟨S1600000x1, .i1⟩
  | .hbm, ⟨105, _⟩ => ⟨S1x1, .i32⟩
  | .hbm, ⟨106, _⟩ => ⟨S1600000x1, .i32⟩
  | .hbm, ⟨107, _⟩ => ⟨S1600000x1, .i1⟩
  | .hbm, ⟨108, _⟩ => ⟨S1600000x1, .i1⟩
  | .hbm, ⟨109, _⟩ => ⟨S_, .i1⟩
  | .hbm, ⟨110, _⟩ => ⟨S1600000, .i1⟩
  | .hbm, ⟨111, _⟩ => ⟨S1600000x128, .f32⟩
  | .hbm, ⟨112, _⟩ => ⟨S1600000x128, .i1⟩
  | .hbm, ⟨113, _⟩ => ⟨S_, .f32⟩
  | .hbm, ⟨114, _⟩ => ⟨S1600000x128, .f32⟩
  | .hbm, ⟨115, _⟩ => ⟨S1600000x128, .f32⟩
  | .hbm, ⟨116, _⟩ => ⟨S_, .f32⟩
  | .hbm, ⟨117, _⟩ => ⟨S100000x128, .f32⟩
  | .hbm, ⟨118, _⟩ => ⟨S1600000x1, .i32⟩
  | .hbm, ⟨119, _⟩ => ⟨S100000x128, .f32⟩
  | .hbm, ⟨120, _⟩ => ⟨S100000x1, .f32⟩
  | .hbm, ⟨121, _⟩ => ⟨S100000x128, .f32⟩
  | .hbm, ⟨122, _⟩ => ⟨S100000x128, .f32⟩
  | .hbm, ⟨123, _⟩ => ⟨S1x64, .f32⟩
  | .hbm, ⟨124, _⟩ => ⟨S1x10, .f32⟩
  | .hbm, ⟨125, _⟩ => ⟨S100000x10, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S128x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x128, .f32⟩
  | .local _ .vmem, ⟨14, _⟩ => ⟨S64x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S128x64, .f32⟩
  | .local _ .vmem, ⟨24, _⟩ => ⟨S1x64, .f32⟩
  | .local _ .vmem, ⟨25, _⟩ => ⟨S64x10, .f32⟩
  | .local _ .vmem, ⟨26, _⟩ => ⟨S1x10, .f32⟩
  | .local _ .vmem, ⟨27, _⟩ => ⟨S5000x10, .f32⟩
  | .local _ .vmem, ⟨28, _⟩ => ⟨S5000x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_c_1 : Ref sig .tc := ⟨.hbm, 37, rfl⟩
abbrev main_call0_c_2 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_3 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_call0_cst : Ref sig .tc := ⟨.hbm, 49, rfl⟩
abbrev main_call0_v15 : Ref sig .tc := ⟨.hbm, 50, rfl⟩
abbrev main_v12 : Ref sig .tc := ⟨.hbm, 51, rfl⟩
abbrev main_cst_3 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_call1_c : Ref sig .tc := ⟨.hbm, 61, rfl⟩
abbrev main_call1_v0 : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_c_1 : Ref sig .tc := ⟨.hbm, 69, rfl⟩
abbrev main_call1_c_2 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_c_3 : Ref sig .tc := ⟨.hbm, 77, rfl⟩
abbrev main_call1_v12 : Ref sig .tc := ⟨.hbm, 78, rfl⟩
abbrev main_call1_v13 : Ref sig .tc := ⟨.hbm, 79, rfl⟩
abbrev main_call1_v14 : Ref sig .tc := ⟨.hbm, 80, rfl⟩
abbrev main_call1_cst : Ref sig .tc := ⟨.hbm, 81, rfl⟩
abbrev main_call1_v15 : Ref sig .tc := ⟨.hbm, 82, rfl⟩
abbrev main_v21 : Ref sig .tc := ⟨.hbm, 83, rfl⟩
abbrev main_cst_4 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_call2_c : Ref sig .tc := ⟨.hbm, 93, rfl⟩
abbrev main_call2_v0 : Ref sig .tc := ⟨.hbm, 94, rfl⟩
abbrev main_call2_v1 : Ref sig .tc := ⟨.hbm, 95, rfl⟩
abbrev main_call2_c_0 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_c_1 : Ref sig .tc := ⟨.hbm, 101, rfl⟩
abbrev main_call2_c_2 : Ref sig .tc := ⟨.hbm, 102, rfl⟩
abbrev main_call2_v6 : Ref sig .tc := ⟨.hbm, 103, rfl⟩
abbrev main_call2_v7 : Ref sig .tc := ⟨.hbm, 104, rfl⟩
abbrev main_call2_v8 : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_call2_c_3 : Ref sig .tc := ⟨.hbm, 109, rfl⟩
abbrev main_call2_v12 : Ref sig .tc := ⟨.hbm, 110, rfl⟩
abbrev main_call2_v13 : Ref sig .tc := ⟨.hbm, 111, rfl⟩
abbrev main_call2_v14 : Ref sig .tc := ⟨.hbm, 112, rfl⟩
abbrev main_call2_cst : Ref sig .tc := ⟨.hbm, 113, rfl⟩
abbrev main_call2_v15 : Ref sig .tc := ⟨.hbm, 114, rfl⟩
abbrev main_v30 : Ref sig .tc := ⟨.hbm, 115, rfl⟩
abbrev main_cst_5 : Ref sig .tc := ⟨.hbm, 116, rfl⟩
abbrev main_v31 : Ref sig .tc := ⟨.hbm, 117, rfl⟩
abbrev main_v32 : Ref sig .tc := ⟨.hbm, 118, rfl⟩
abbrev main_v33 : Ref sig .tc := ⟨.hbm, 119, rfl⟩
abbrev main_v34 : Ref sig .tc := ⟨.hbm, 120, rfl⟩
abbrev main_v35 : Ref sig .tc := ⟨.hbm, 121, rfl⟩
abbrev main_v36 : Ref sig .tc := ⟨.hbm, 122, rfl⟩
abbrev main_v37 : Ref sig .tc := ⟨.hbm, 123, rfl⟩
abbrev main_v38 : Ref sig .tc := ⟨.hbm, 124, rfl⟩
abbrev main_v39 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem7_1 : DmaSem sig := 28

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x10 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x10 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S128_S1x128 : S128.ShapeCasts S1x128
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S10_S1x10 : S10.ShapeCasts S1x10
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  inb_S5000x10_S5000x10_0_0 : ∀ a, (![0, 0] : Fin 2 → Nat) a + S5000x10.size a ≤ S5000x10.size a
  h_S5000x10 : 0 < S5000x10.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  dot_S5000x64_S64x10_S5000x10_1_0_0_1_n_n_wf : DotDims.WF S5000x64 S64x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x10.size a ≤ S64x10.size a
  hwx2_5 : ∀ i : grid2.Coords, EltTy.bits .f32 = 32 ∨ (Rect.block (s := S64x10) S64x10.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x10.size a ≤ S1x10.size a
  hwx2_6 : ∀ i : grid2.Coords, EltTy.bits .f32 = 32 ∨ (Rect.block (s := S1x10) S1x10.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x10.size a ≤ S100000x10.size a
  hwx2_7 : ∀ i : grid2.Coords, EltTy.bits .f32 = 32 ∨ (Rect.block (s := S100000x10) S5000x10.size (cc2_transform_7 i) (hinb2_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x64_S64x10_S5000x10_1_0_0_1_n_n : DotDims S5000x64 S64x10 S5000x10 where
  lhsContracting := [1]
  rhsContracting := [0]
  lhsNonContracting := [0]
  rhsNonContracting := [1]
  lhsBatch := []
  rhsBatch := []
  wf := dot_S5000x64_S64x10_S5000x10_1_0_0_1_n_n_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S64x10.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v38) S1x10.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v39) S5000x10.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S1x128 : Shape := ⟨2, ![1, 128]⟩
abbrev S100000x10 : Shape := ⟨2, ![100000, 10]⟩
abbrev S1x10 : Shape := ⟨2, ![1, 10]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S64x128, .f32⟩
  | .hbm, ⟨6, _⟩ => ⟨S64x128, .f32⟩
  | .hbm, ⟨7, _⟩ => ⟨S128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S64x10, .f32⟩
  | .hbm, ⟨12, _⟩ => ⟨S10, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S_, .f32⟩
  | .hbm, ⟨31, _⟩ => ⟨S1600000, .f32⟩
  | .hbm, ⟨32, _⟩ => ⟨S_, .f32⟩
  | .hbm, ⟨33, _⟩ => ⟨S100000, .f32⟩
  | .hbm, ⟨34, _⟩ => ⟨S1600000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S1x64, .f32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S_, .f32⟩
  | .hbm, ⟨63, _⟩ => ⟨S1600000, .f32⟩
  | .hbm, ⟨64, _⟩ => ⟨S_, .f32⟩
  | .hbm, ⟨65, _⟩ => ⟨S100000, .f32⟩
  | .hbm, ⟨66, _⟩ => ⟨S1600000x1, .i32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S100000x1, .f32⟩
  | .hbm, ⟨72, _⟩ => ⟨S100000x64, .f32⟩
  | .hbm, ⟨73, _⟩ => ⟨S100000x64, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S_, .i32⟩
  | .hbm, ⟨82, _⟩ => ⟨S1600000, .i32⟩
  | .hbm, ⟨83, _⟩ => ⟨S1600000, .i1⟩
  | .hbm, ⟨84, _⟩ => ⟨S_, .i32⟩
  | .hbm, ⟨85, _⟩ => ⟨S1600000, .i32⟩
  | .hbm, ⟨86, _⟩ => ⟨S1600000, .i32⟩
  | .hbm, ⟨87, _⟩ => ⟨S1600000, .i32⟩
  | .hbm, ⟨88, _⟩ => ⟨S1600000x1, .i32⟩
  | .hbm, ⟨89, _⟩ => ⟨S1600000x128, .f32⟩
  | .hbm, ⟨90, _⟩ => ⟨S_, .f32⟩
  | .hbm, ⟨91, _⟩ => ⟨S100000x128, .f32⟩
  | .hbm, ⟨92, _⟩ => ⟨S1600000x1, .i32⟩
  | .hbm, ⟨93, _⟩ => ⟨S100000x128, .f32⟩
  | .hbm, ⟨94, _⟩ => ⟨S_, .f32⟩
  | .hbm, ⟨95, _⟩ => ⟨S1600000, .f32⟩
  | .hbm, ⟨96, _⟩ => ⟨S_, .f32⟩
  | .hbm, ⟨97, _⟩ => ⟨S100000, .f32⟩
  | .hbm, ⟨98, _⟩ => ⟨S1600000x1, .i32⟩
  | .hbm, ⟨99, _⟩ => ⟨S100000, .f32⟩
  | .hbm, ⟨100, _⟩ => ⟨S_, .f32⟩
  | .hbm, ⟨101, _⟩ => ⟨S100000, .f32⟩
  | .hbm, ⟨102, _⟩ => ⟨S100000, .f32⟩
  | .hbm, ⟨103, _⟩ => ⟨S100000x1, .f32⟩
  | .hbm, ⟨104, _⟩ => ⟨S100000x128, .f32⟩
  | .hbm, ⟨105, _⟩ => ⟨S100000x128, .f32⟩
  | .hbm, ⟨106, _⟩ => ⟨S100000x64, .f32⟩
  | .hbm, ⟨107, _⟩ => ⟨S100000x64, .f32⟩
  | .hbm, ⟨108, _⟩ => ⟨S100000x64, .f32⟩
  | .hbm, ⟨109, _⟩ => ⟨S1x64, .f32⟩
  | .hbm, ⟨110, _⟩ => ⟨S100000x64, .f32⟩
  | .hbm, ⟨111, _⟩ => ⟨S100000x64, .f32⟩
  | .hbm, ⟨112, _⟩ => ⟨S100000x64, .f32⟩
  | .hbm, ⟨113, _⟩ => ⟨S100000x10, .f32⟩
  | .hbm, ⟨114, _⟩ => ⟨S1x10, .f32⟩
  | .hbm, ⟨115, _⟩ => ⟨S100000x10, .f32⟩
  | .hbm, ⟨116, _⟩ => ⟨S100000x10, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_10 : Ref sig .tc := ⟨.hbm, 81, rfl⟩
abbrev main_v56 : Ref sig .tc := ⟨.hbm, 82, rfl⟩
abbrev main_v57 : Ref sig .tc := ⟨.hbm, 83, rfl⟩
abbrev main_c_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_12 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_13 : Ref sig .tc := ⟨.hbm, 94, rfl⟩
abbrev main_v66 : Ref sig .tc := ⟨.hbm, 95, rfl⟩
abbrev main_cst_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_15 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  dot_S100000x64_S64x10_S100000x10_1_0_0_1_n_n_wf : DotDims.WF S100000x64 S64x10 S100000x10 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x64_S64x10_S100000x10_1_0_0_1_n_n : DotDims S100000x64 S64x10 S100000x10 where
  lhsContracting := [1]
  rhsContracting := [0]
  lhsNonContracting := [0]
  rhsNonContracting := [1]
  lhsBatch := []
  rhsBatch := []
  wf := dot_S100000x64_S64x10_S100000x10_1_0_0_1_n_n_wf

class Facts : Prop extends Facts₀ where

variable [Facts]
-- ==== Proof.Spec.lean ====
/-
  One GraphSAGE layer's dense stage and the closing linear map, entry by entry, on the extended reals.

  A layer maps the aggregated neighbour means `mean` and the node features `x` (both `[n, k]`), two weight
  matrices `wl`, `wr` (`[k, d]`) and a bias row `b` (`d` entries) to the `[n, d]` array whose entry `(p, q)` is
  `tanh (Σ_j mean (p, j) · wl (j, q) + Σ_j x (p, j) · wr (j, q) + b q)`. The closing map sends `h` (`[n, k]`), `w`
  (`[k, d]`) and a bias row to `Σ_j h (p, j) · w (j, q) + b q`. Both the tiled kernels and the whole-array reference
  compute exactly these entries; the tiling only decides which grid point writes which rows.
-/
import Idealize.ShloMosaic.PureOps.Ideal
import Idealize.ShloMosaic.Lib.ValueIdx
import Mathlib.Algebra.BigOperators.Fin

noncomputable section

namespace Cert.Sage

open Idealize.ShloMosaic Idealize.ShloMosaic.ValueIdx
open scoped BigOperators

variable {n k d : ℕ}

/-- Entry `(p, q)` of a layer's dense stage. -/
def denseAt (mean x : (⟨2, ![n, k]⟩ : Shape).Idx → EReal) (wl wr : (⟨2, ![k, d]⟩ : Shape).Idx → EReal)
    (b : Fin d → EReal) (p : Fin n) (q : Fin d) : EReal :=
  Ideal.tanh (((∑ j : Fin k, mean (ix2 p j) * wl (ix2 j q)) + (∑ j : Fin k, x (ix2 p j) * wr (ix2 j q))) + b q)

/-- A layer's dense stage as one `[n, d]` array. -/
def dense (mean x : (⟨2, ![n, k]⟩ : Shape).Idx → EReal) (wl wr : (⟨2, ![k, d]⟩ : Shape).Idx → EReal)
    (b : Fin d → EReal) : (⟨2, ![n, d]⟩ : Shape).Idx → EReal :=
  fun i => denseAt mean x wl wr b (i 0) (i 1)

theorem dense_apply (mean x : (⟨2, ![n, k]⟩ : Shape).Idx → EReal) (wl wr : (⟨2, ![k, d]⟩ : Shape).Idx → EReal)
    (b : Fin d → EReal) (p : Fin n) (q : Fin d) : dense mean x wl wr b (ix2 p q) = denseAt mean x wl wr b p q := rfl

/-- Entry `(p, q)` of the closing linear map. -/
def linAt (h : (⟨2, ![n, k]⟩ : Shape).Idx → EReal) (w : (⟨2, ![k, d]⟩ : Shape).Idx → EReal)
    (b : Fin d → EReal) (p : Fin n) (q : Fin d) : EReal :=
  (∑ j : Fin k, h (ix2 p j) * w (ix2 j q)) + b q

/-- The closing linear map as one `[n, d]` array. -/
def lin (h : (⟨2, ![n, k]⟩ : Shape).Idx → EReal) (w : (⟨2, ![k, d]⟩ : Shape).Idx → EReal)
    (b : Fin d → EReal) : (⟨2, ![n, d]⟩ : Shape).Idx → EReal :=
  fun i => linAt h w b (i 0) (i 1)

theorem lin_apply (h : (⟨2, ![n, k]⟩ : Shape).Idx → EReal) (w : (⟨2, ![k, d]⟩ : Shape).Idx → EReal)
    (b : Fin d → EReal) (p : Fin n) (q : Fin d) : lin h w b (ix2 p q) = linAt h w b p q := rfl

/-- Multiplying by the reciprocal of a nonzero extended real is dividing by it: `1 / y` is `y⁻¹` off zero, at the
    infinities too, so no finiteness is needed. -/
theorem mul_one_div (x y : EReal) (hy : y ≠ 0) : x * Ideal.div 1 y = Ideal.div x y := by
  unfold Ideal.div
  rw [if_neg hy, if_neg hy, one_mul]

/-- A maximum with one is not zero. -/
theorem max_one_ne_zero (x : EReal) : max x 1 ≠ 0 :=
  ne_of_gt (lt_of_lt_of_le zero_lt_one (le_max_right x 1))

end Cert.Sage

end
-- ==== Proof.LibPlainMatmul.lean ====
/-
  A plain matrix product read at one element.

  `[a, k] × [k, b] → [a, b]` with the left operand's second axis contracted against the right operand's first, no batch
  axis: the product into a zero accumulator reads, at `(p, q)`, the sum over `j < k` of `lhs (p, j) · rhs (j, q)`.
  The contraction index of the dimension numbers is a one-coordinate index; the sum is re-indexed through its one
  coordinate, and each operand index is identified axis by axis (the free axis from the result index, the contracted
  axis from the contraction index).
-/
import Idealize.ShloMosaic.PureOps.Ideal.Laws
import Idealize.ShloMosaic.Lib.ValueIdx
import Mathlib.Algebra.BigOperators.Fin

namespace Cert.Lib.PlainMatmul

open Idealize.ShloMosaic Idealize.ShloMosaic.ValueIdx
open scoped BigOperators

/-- The dimension numbers of a plain product: contract the left's axis 1 with the right's axis 0. -/
abbrev plainDims (a k b : ℕ) (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

section
variable {a k b : ℕ} (wf : DotDims.WF ⟨2, ![a, k]⟩ ⟨2, ![k, b]⟩ ⟨2, ![a, b]⟩ [1] [0] [0] [1] [] [])

/-- The left operand's row is the result's row. -/
theorem lhs_row (j : (⟨2, ![a, b]⟩ : Shape).Idx) (q : (plainDims a k b wf).contr.Idx) :
    ((plainDims a k b wf).lhsIdx j q 0).val = (j 0).val := by
  unfold DotDims.lhsIdx
  rw [dif_neg (show ¬(0 : Fin 2) ∈ (plainDims a k b wf).lhsBatch from List.not_mem_nil),
    dif_pos (show (0 : Fin 2) ∈ (plainDims a k b wf).lhsNonContracting from List.mem_singleton.mpr rfl)]
  rfl

/-- The left operand's column is the contraction coordinate. -/
theorem lhs_col (j : (⟨2, ![a, b]⟩ : Shape).Idx) (q : (plainDims a k b wf).contr.Idx) :
    ((plainDims a k b wf).lhsIdx j q 1).val = (q ⟨0, Nat.one_pos⟩).val :=
  (plainDims a k b wf).lhsIdx_val_of_single rfl j q

/-- The right operand's row is the contraction coordinate. -/
theorem rhs_row (j : (⟨2, ![a, b]⟩ : Shape).Idx) (q : (plainDims a k b wf).contr.Idx) :
    ((plainDims a k b wf).rhsIdx j q 0).val = (q ⟨0, Nat.one_pos⟩).val :=
  (plainDims a k b wf).rhsIdx_val_of_single rfl j q

/-- The right operand's column is the result's column. -/
theorem rhs_col (j : (⟨2, ![a, b]⟩ : Shape).Idx) (q : (plainDims a k b wf).contr.Idx) :
    ((plainDims a k b wf).rhsIdx j q 1).val = (j 1).val := by
  unfold DotDims.rhsIdx
  rw [dif_neg (show ¬(1 : Fin 2) ∈ (plainDims a k b wf).rhsBatch from List.not_mem_nil),
    dif_pos (show (1 : Fin 2) ∈ (plainDims a k b wf).rhsNonContracting from List.mem_singleton.mpr rfl)]
  rfl

/-- The contraction sum of a plain product at `(p, q)`, as a sum over `j < k`. -/
theorem contr_sum_plainDims (lhs : (⟨2, ![a, k]⟩ : Shape).Idx → EReal) (rhs : (⟨2, ![k, b]⟩ : Shape).Idx → EReal)
    (p : Fin a) (q : Fin b) :
    (∑ c : (plainDims a k b wf).contr.Idx,
        lhs ((plainDims a k b wf).lhsIdx (ix2 p q) c) * rhs ((plainDims a k b wf).rhsIdx (ix2 p q) c))
      = ∑ j : Fin k, lhs (ix2 p j) * rhs (ix2 j q) := by
  rw [← Equiv.sum_comp (contrEquiv1 (plainDims a k b wf) k rfl rfl).symm]
  refine Finset.sum_congr rfl fun j _ => ?_
  have hk := contrEquiv1_symm_val (plainDims a k b wf) k rfl rfl j
  have el : (plainDims a k b wf).lhsIdx (ix2 p q) ((contrEquiv1 (plainDims a k b wf) k rfl rfl).symm j) = ix2 p j :=
    funext fun ax => Fin.ext (by
      match ax with
      | ⟨0, _⟩ => exact lhs_row wf _ _
      | ⟨1, _⟩ => exact (lhs_col wf _ _).trans hk)
  have er : (plainDims a k b wf).rhsIdx (ix2 p q) ((contrEquiv1 (plainDims a k b wf) k rfl rfl).symm j) = ix2 j q :=
    funext fun ax => Fin.ext (by
      match ax with
      | ⟨0, _⟩ => exact (rhs_row wf _ _).trans hk
      | ⟨1, _⟩ => exact rhs_col wf _ _)
  rw [el, er]

end

/-- THE PRODUCT INTO A ZERO ACCUMULATOR AT `(p, q)`, for any record with the plain dimension numbers: the sum over
    `j < k` of `lhs (p, j) · rhs (j, q)`. -/
theorem matmul_zero_apply {a k b : ℕ} {φ₁ φ₂ : FTy} (d : DotDims ⟨2, ![a, k]⟩ ⟨2, ![k, b]⟩ ⟨2, ![a, b]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  obtain ⟨lc, rc, ln, rn, lb, rb, wf⟩ := d
  simp only at h1 h2 h3 h4 h5 h6
  subst h1 h2 h3 h4 h5 h6
  rw [Ideal.matmul_constant_zero_apply]
  exact contr_sum_plainDims wf lhs rhs p q

/-- The host's contraction at the same dimension numbers, at `(p, q)`: the same sum. -/
theorem dotGeneral_apply {a k b : ℕ} {φ₁ φ₂ : FTy} (d : DotDims ⟨2, ![a, k]⟩ ⟨2, ![k, b]⟩ ⟨2, ![a, b]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![a, k]⟩ φ₁)
    (rhs : FVec Ideal ⟨2, ![k, b]⟩ φ₂) (p : Fin a) (q : Fin b) :
    FloatOps.dotGeneral d prec sched lhs rhs (ix2 p q) = ∑ j : Fin k, lhs (ix2 p j) * rhs (ix2 j q) := by
  obtain ⟨lc, rc, ln, rn, lb, rb, wf⟩ := d
  simp only at h1 h2 h3 h4 h5 h6
  subst h1 h2 h3 h4 h5 h6
  rw [Ideal.dotGeneral_apply]
  exact contr_sum_plainDims wf lhs rhs p q

end Cert.Lib.PlainMatmul
-- ==== Proof.Dense0.lean ====
/-
  The first pallas_call's output array, as one function of the arrays the region finds.

  The kernel tiles the 100000 rows into 20 blocks of 5000. At grid point `t` the body reads rows
  `[5000 t, 5000 t + 5000)` of the aggregated means and of the features, both whole weight matrices and the bias row,
  and stores `tanh (mean · Wl + x · Wr + b)` for those rows: entry `(p, q)` of the stored block is the layer's dense
  stage at row `5000 t + p`, column `q`, since row `p` of a row block is row `5000 t + p` of its array and the
  contraction runs over whole rows and columns. The 20 blocks tile the output, so the array ends as the dense stage
  of the whole arrays.
-/
import proofs.«414861_j15625091022994_1_alg».proof.Proof.Gen.KernelIdeal.Frame
import proofs.«414861_j15625091022994_1_alg».proof.Proof.Spec
import proofs.«414861_j15625091022994_1_alg».proof.Proof.LibPlainMatmul
import Idealize.ShloMosaic.Lib.Pipeline.Value
import Idealize.ShloMosaic.Lib.ValueLayout

set_option maxRecDepth 16384

noncomputable section

namespace Cert.Sage.K0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage Cert.Lib.PlainMatmul
open scoped BigOperators

theorem hz : (![0, 0] : Fin 2 → Nat) = fun _ => 0 := funext fun a => by fin_cases a <;> rfl

/-- The body's stored value at entry `(p, q)`: the dense stage of the loaded blocks there. The two products go into
    zero accumulators, the format changes are the identity on extended reals, and the bias row is read at column `q`. -/
theorem pay_apply (x0 x1 : Vec Ideal S5000x128 .f32) (x2 x3 : Vec Ideal S128x64 .f32) (x4 : Vec Ideal S1x64 .f32)
    (p : Fin 5000) (q : Fin 64) :
    k0_pay1 x0 x1 x2 x3 x4 (ix2 p q) = denseAt x0 x1 x2 x3 (fun q => x4 (ix2 0 q)) p q := by
  unfold k0_pay1 denseAt
  rw [show ∀ v : FVec Ideal S5000x64 .f32, tanh v (ix2 p q) = Ideal.tanh (v (ix2 p q)) from fun _ => rfl,
    addf_apply, addf_apply]
  refine congrArg Ideal.tanh (congrArg₂ (· + ·) (congrArg₂ (· + ·) ?_ ?_) ?_)
  · refine (matmul_zero_apply dot_S5000x128_S128x64_S5000x64_1_0_0_1_n_n rfl rfl rfl rfl rfl rfl none _ _ p q).trans ?_
    simp only [shapeCast_self, truncf_apply]
  · refine (matmul_zero_apply dot_S5000x128_S128x64_S5000x64_1_0_0_1_n_n rfl rfl rfl rfl rfl rfl none _ _ p q).trans ?_
    simp only [shapeCast_self, truncf_apply]
  · rw [shapeCast_self]
    exact broadcastTo_apply x4 broadcasts_S1x64_S5000x64 (ix2 p q) (ix2 0 q) (fun a => by
      match a with
      | ⟨0, _⟩ => rfl
      | ⟨1, _⟩ => rfl)

/-- The block index of each window at each of the 20 grid points: the two row-blocked inputs and the output move with
    the point, the weights and the bias stay at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 20 := t.isLt

/-- Row `p` of row block `t` as a row of the whole array. -/
def row (t : Fin cfg0.N) (p : Fin 5000) : Fin 100000 := ⟨t.val * 5000 + p.val, by have := t_lt t; have := p.isLt; omega⟩

variable (V : (c : Dev nD) → (b : Ref sig .tc) → Buf (Elt Ideal) ((c : Thread nD τ).loc b))

/-- The dense stage of the arrays the region finds. -/
abbrev G (c : Dev nD) : S100000x64.Idx → EReal :=
  dense (V c main_v18) (V c main_arg0) (V c main_arg2) (V c main_arg3) (fun q => V c main_v19 (ix2 0 q))

/-- WHAT POINT `t` WRITES BACK is block `t` of the dense stage of the whole arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x64) hz, View.ld_unit_zero (S := S1x64) hz]
  obtain ⟨e00, e01, e10, e11, e20, e21, e30, e31, e40, e41, e50, e51⟩ := idx_facts t
  funext j
  obtain ⟨p, q, rfl⟩ : ∃ (p : Fin 5000) (q : Fin 64), j = ix2 p q := ⟨j 0, j 1, @eq_ix2 5000 64 j⟩
  have hout : ((cfg0.win 5).blk t).view.emb (ix2 p q) = ix2 (row t p) q := by
    funext a; apply Fin.ext
    match a with
    | ⟨0, _⟩ => show win0_5.index t (0 : Fin 2) * 5000 + 1 * p.val = t.val * 5000 + p.val; omega
    | ⟨1, _⟩ => show win0_5.index t (1 : Fin 2) * 64 + 1 * q.val = q.val; omega
  have hmean : ∀ k : Fin 128, iblk0 V c 0 t (ix2 p k) = V c main_v18 (ix2 (row t p) k) := fun k => by
    show V c main_v18 (((cfg0.win 0).blk t).view.emb (ix2 p k)) = _
    refine congrArg (V c main_v18) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  have hx : ∀ k : Fin 128, iblk0 V c 1 t (ix2 p k) = V c main_arg0 (ix2 (row t p) k) := fun k => by
    show V c main_arg0 (((cfg0.win 1).blk t).view.emb (ix2 p k)) = _
    refine congrArg (V c main_arg0) (funext fun a => Fin.ext ?_)
    match a with
    | ⟨0, _⟩ => show win0_1.index t (0 : Fin 2) * 5000 + 1 * p.val = t.val * 5000 + p.val; omega
    | ⟨1, _⟩ => show win0_1.index t (1 : Fin 2) * 128 + 1 * k.val = k.val; omega
  have hwl : ∀ k : Fin 128, iblk0 V c 2 t (ix2 k q) = V c main_arg2 (ix2 k q) := fun k => by
    show V c main_arg2 (((cfg0.win 2).blk t).view.emb (ix2 k q)) = _
    refine congrArg (V c main_arg2) (funext fun a => Fin.ext ?_)
    match a with
    | ⟨0, _⟩ => show win0_2.index t (0 : Fin 2) * 128 + 1 * k.val = k.val; omega
    | ⟨1, _⟩ => show win0_2.index t (1 : Fin 2) * 64 + 1 * q.val = q.val; omega
  have hwr : ∀ k : Fin 128, iblk0 V c 3 t (ix2 k q) = V c main_arg3 (ix2 k q) := fun k => by
    show V c main_arg3 (((cfg0.win 3).blk t).view.emb (ix2 k q)) = _
    refine congrArg (V c main_arg3) (funext fun a => Fin.ext ?_)
    match a with
    | ⟨0, _⟩ => show win0_3.index t (0 : Fin 2) * 128 + 1 * k.val = k.val; omega
    | ⟨1, _⟩ => show win0_3.index t (1 : Fin 2) * 64 + 1 * q.val = q.val; omega
  have hb : iblk0 V c 4 t (ix2 (0 : Fin 1) q) = V c main_v19 (ix2 (0 : Fin 1) q) := by
    show V c main_v19 (((cfg0.win 4).blk t).view.emb (ix2 (0 : Fin 1) q)) = _
    refine congrArg (V c main_v19) (funext fun a => Fin.ext ?_)
    match a with
    | ⟨0, _⟩ => show win0_4.index t (0 : Fin 2) * 1 + 1 * 0 = 0; omega
    | ⟨1, _⟩ => show win0_4.index t (1 : Fin 2) * 64 + 1 * q.val = q.val; omega
  show k0_pay1 (iblk0 V c 0 t) (iblk0 V c 1 t) (iblk0 V c 2 t) (iblk0 V c 3 t) (iblk0 V c 4 t) (ix2 p q)
      = G V c (((cfg0.win 5).blk t).view.emb (ix2 p q))
  refine (pay_apply (iblk0 V c 0 t) (iblk0 V c 1 t) (iblk0 V c 2 t) (iblk0 V c 3 t) (iblk0 V c 4 t) p q).trans ?_
  rw [hout]
  show denseAt (iblk0 V c 0 t) (iblk0 V c 1 t) (iblk0 V c 2 t) (iblk0 V c 3 t) (fun q => iblk0 V c 4 t (ix2 0 q)) p q
      = denseAt (V c main_v18) (V c main_arg0) (V c main_arg2) (V c main_arg3) (fun q => V c main_v19 (ix2 0 q)) (row t p) q
  unfold denseAt
  refine congrArg Ideal.tanh (congrArg₂ (· + ·) (congrArg₂ (· + ·) ?_ ?_) hb)
  · exact Finset.sum_congr rfl fun k _ => by rw [hmean k, hwl k]
  · exact Finset.sum_congr rfl fun k _ => by rw [hx k, hwr k]

/-- An index of the output array is in point `t`'s block iff each coordinate is in the block's range on its axis. -/
theorem mem_blk (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v20).slice (win0_5.rect t)).set ↔ _
  rw [View.set_slice_whole, Rect.mem_set_unit]
  exact Iff.rfl

/-- Every block of rows is some point's. -/
theorem idx_onto : ∀ r : Fin 20, ∃ t : Fin cfg0.N, win0_5.index t = ![r.val, 0] :=
  (by decide +kernel : ∀ r : Fin 20, ∃ t : Fin grid0.N, win0_5.index t = ![r.val, 0])

/-- The 20 row blocks cover the output array. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- THE OUTPUT ARRAY after the region: the dense stage of the arrays the region finds. -/
theorem final (c : Dev nD) : (dat0 V c).arrAt 5 cfg0.N = G V c :=
  (dat0 V c).arrAt_eq_of_cover 5 (G V c) (fun t _ => flushed_eq V c t) cover

end Cert.Sage.K0

end
-- ==== Proof.Dense1.lean ====
/-
  The second pallas_call's output array, as one function of the arrays the region finds.

  The kernel tiles the 100000 rows into 20 blocks of 5000. At grid point `t` the body reads rows
  `[5000 t, 5000 t + 5000)` of the aggregated means and of the features, both whole weight matrices and the bias row,
  and stores `tanh (mean · Wl + x · Wr + b)` for those rows: entry `(p, q)` of the stored block is the layer's dense
  stage at row `5000 t + p`, column `q`, since row `p` of a row block is row `5000 t + p` of its array and the
  contraction runs over whole rows and columns. The 20 blocks tile the output, so the array ends as the dense stage
  of the whole arrays.
-/
import proofs.«414861_j15625091022994_1_alg».proof.Proof.Gen.KernelIdeal.Frame
import proofs.«414861_j15625091022994_1_alg».proof.Proof.Spec
import proofs.«414861_j15625091022994_1_alg».proof.Proof.LibPlainMatmul
import Idealize.ShloMosaic.Lib.Pipeline.Value
import Idealize.ShloMosaic.Lib.ValueLayout

set_option maxRecDepth 16384

noncomputable section

namespace Cert.Sage.K1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage Cert.Lib.PlainMatmul
open scoped BigOperators

theorem hz : (![0, 0] : Fin 2 → Nat) = fun _ => 0 := funext fun a => by fin_cases a <;> rfl

/-- The body's stored value at entry `(p, q)`: the dense stage of the loaded blocks there. The two products go into
    zero accumulators, the format changes are the identity on extended reals, and the bias row is read at column `q`. -/
theorem pay_apply (x0 x1 : Vec Ideal S5000x64 .f32) (x2 x3 : Vec Ideal S64x128 .f32) (x4 : Vec Ideal S1x128 .f32)
    (p : Fin 5000) (q : Fin 128) :
    k1_pay1 x0 x1 x2 x3 x4 (ix2 p q) = denseAt x0 x1 x2 x3 (fun q => x4 (ix2 0 q)) p q := by
  unfold k1_pay1 denseAt
  rw [show ∀ v : FVec Ideal S5000x128 .f32, tanh v (ix2 p q) = Ideal.tanh (v (ix2 p q)) from fun _ => rfl,
    addf_apply, addf_apply]
  refine congrArg Ideal.tanh (congrArg₂ (· + ·) (congrArg₂ (· + ·) ?_ ?_) ?_)
  · refine (matmul_zero_apply dot_S5000x64_S64x128_S5000x128_1_0_0_1_n_n rfl rfl rfl rfl rfl rfl none _ _ p q).trans ?_
    simp only [shapeCast_self, truncf_apply]
  · refine (matmul_zero_apply dot_S5000x64_S64x128_S5000x128_1_0_0_1_n_n rfl rfl rfl rfl rfl rfl none _ _ p q).trans ?_
    simp only [shapeCast_self, truncf_apply]
  · rw [shapeCast_self]
    exact broadcastTo_apply x4 broadcasts_S1x128_S5000x128 (ix2 p q) (ix2 0 q) (fun a => by
      match a with
      | ⟨0, _⟩ => rfl
      | ⟨1, _⟩ => rfl)

/-- The block index of each window at each of the 20 grid points: the two row-blocked inputs and the output move with
    the point, the weights and the bias stay at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 20 := t.isLt

/-- Row `p` of row block `t` as a row of the whole array. -/
def row (t : Fin cfg1.N) (p : Fin 5000) : Fin 100000 := ⟨t.val * 5000 + p.val, by have := t_lt t; have := p.isLt; omega⟩

variable (V : (c : Dev nD) → (b : Ref sig .tc) → Buf (Elt Ideal) ((c : Thread nD τ).loc b))

/-- The dense stage of the arrays the region finds. -/
abbrev G (c : Dev nD) : S100000x128.Idx → EReal :=
  dense (V c main_v27) (V c main_v20) (V c main_arg5) (V c main_arg6) (fun q => V c main_v28 (ix2 0 q))

/-- WHAT POINT `t` WRITES BACK is block `t` of the dense stage of the whole arrays. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x128) hz, View.ld_unit_zero (S := S1x128) hz]
  obtain ⟨e00, e01, e10, e11, e20, e21, e30, e31, e40, e41, e50, e51⟩ := idx_facts t
  funext j
  obtain ⟨p, q, rfl⟩ : ∃ (p : Fin 5000) (q : Fin 128), j = ix2 p q := ⟨j 0, j 1, @eq_ix2 5000 128 j⟩
  have hout : ((cfg1.win 5).blk t).view.emb (ix2 p q) = ix2 (row t p) q := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  have hmean : ∀ k : Fin 64, iblk1 V c 0 t (ix2 p k) = V c main_v27 (ix2 (row t p) k) := fun k => by
    show V c main_v27 (((cfg1.win 0).blk t).view.emb (ix2 p k)) = _
    refine congrArg (V c main_v27) (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * k.val = k.val; omega
  have hx : ∀ k : Fin 64, iblk1 V c 1 t (ix2 p k) = V c main_v20 (ix2 (row t p) k) := fun k => by
    show V c main_v20 (((cfg1.win 1).blk t).view.emb (ix2 p k)) = _
    refine congrArg (V c main_v20) (funext fun a => Fin.ext ?_)
    match a with
    | ⟨0, _⟩ => show win1_1.index t (0 : Fin 2) * 5000 + 1 * p.val = t.val * 5000 + p.val; omega
    | ⟨1, _⟩ => show win1_1.index t (1 : Fin 2) * 64 + 1 * k.val = k.val; omega
  have hwl : ∀ k : Fin 64, iblk1 V c 2 t (ix2 k q) = V c main_arg5 (ix2 k q) := fun k => by
    show V c main_arg5 (((cfg1.win 2).blk t).view.emb (ix2 k q)) = _
    refine congrArg (V c main_arg5) (funext fun a => Fin.ext ?_)
    match a with
    | ⟨0, _⟩ => show win1_2.index t (0 : Fin 2) * 64 + 1 * k.val = k.val; omega
    | ⟨1, _⟩ => show win1_2.index t (1 : Fin 2) * 128 + 1 * q.val = q.val; omega
  have hwr : ∀ k : Fin 64, iblk1 V c 3 t (ix2 k q) = V c main_arg6 (ix2 k q) := fun k => by
    show V c main_arg6 (((cfg1.win 3).blk t).view.emb (ix2 k q)) = _
    refine congrArg (V c main_arg6) (funext fun a => Fin.ext ?_)
    match a with
    | ⟨0, _⟩ => show win1_3.index t (0 : Fin 2) * 64 + 1 * k.val = k.val; omega
    | ⟨1, _⟩ => show win1_3.index t (1 : Fin 2) * 128 + 1 * q.val = q.val; omega
  have hb : iblk1 V c 4 t (ix2 (0 : Fin 1) q) = V c main_v28 (ix2 (0 : Fin 1) q) := by
    show V c main_v28 (((cfg1.win 4).blk t).view.emb (ix2 (0 : Fin 1) q)) = _
    refine congrArg (V c main_v28) (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega
  show k1_pay1 (iblk1 V c 0 t) (iblk1 V c 1 t) (iblk1 V c 2 t) (iblk1 V c 3 t) (iblk1 V c 4 t) (ix2 p q)
      = G V c (((cfg1.win 5).blk t).view.emb (ix2 p q))
  refine (pay_apply (iblk1 V c 0 t) (iblk1 V c 1 t) (iblk1 V c 2 t) (iblk1 V c 3 t) (iblk1 V c 4 t) p q).trans ?_
  rw [hout]
  show denseAt (iblk1 V c 0 t) (iblk1 V c 1 t) (iblk1 V c 2 t) (iblk1 V c 3 t) (fun q => iblk1 V c 4 t (ix2 0 q)) p q
      = denseAt (V c main_v27) (V c main_v20) (V c main_arg5) (V c main_arg6) (fun q => V c main_v28 (ix2 0 q)) (row t p) q
  unfold denseAt
  refine congrArg Ideal.tanh (congrArg₂ (· + ·) (congrArg₂ (· + ·) ?_ ?_) hb)
  · exact Finset.sum_congr rfl fun k _ => by rw [hmean k, hwl k]
  · exact Finset.sum_congr rfl fun k _ => by rw [hx k, hwr k]

/-- An index of the output array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v29).slice (win1_5.rect t)).set ↔ _
  rw [View.set_slice_whole, Rect.mem_set_unit]
  exact Iff.rfl

/-- Every block of rows is some point's. -/
theorem idx_onto : ∀ r : Fin 20, ∃ t : Fin cfg1.N, win1_5.index t = ![r.val, 0] :=
  (by decide +kernel : ∀ r : Fin 20, ∃ t : Fin grid1.N, win1_5.index t = ![r.val, 0])

/-- The 20 row blocks cover the output array. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE OUTPUT ARRAY after the region: the dense stage of the arrays the region finds. -/
theorem final (c : Dev nD) : (dat1 V c).arrAt 5 cfg1.N = G V c :=
  (dat1 V c).arrAt_eq_of_cover 5 (G V c) (fun t _ => flushed_eq V c t) cover

end Cert.Sage.K1

end
-- ==== Proof.Dense2.lean ====
/-
  The third pallas_call's output array, as one function of the arrays the region finds.

  The last kernel tiles the 100000 rows into 20 blocks of 5000 as the first two do. At grid point `t` its body computes
  the layer's dense stage `h = tanh (mean · Wl + x · Wr + b)` for rows `[5000 t, 5000 t + 5000)` and at once the closing
  linear map `h · Wlin + blin` of those rows, which it stores. Entry `(p, q)` of the stored block is the closing map
  of the whole arrays' dense stage at row `5000 t + p`, column `q`; the 20 blocks tile the output.
-/
import proofs.«414861_j15625091022994_1_alg».proof.Proof.Gen.KernelIdeal.Frame
import proofs.«414861_j15625091022994_1_alg».proof.Proof.Spec
import proofs.«414861_j15625091022994_1_alg».proof.Proof.LibPlainMatmul
import Idealize.ShloMosaic.Lib.Pipeline.Value
import Idealize.ShloMosaic.Lib.ValueLayout

set_option maxRecDepth 16384

noncomputable section

namespace Cert.Sage.K2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage Cert.Lib.PlainMatmul
open scoped BigOperators

theorem hz : (![0, 0] : Fin 2 → Nat) = fun _ => 0 := funext fun a => by fin_cases a <;> rfl

/-- The hidden layer the body computes before the closing product, at entry `(p, m)`: the dense stage of the loaded
    blocks there. The two products go into zero accumulators, the format changes are the identity on extended reals,
    and the bias row is read at column `m`. -/
theorem inner_apply (x0 x1 : Vec Ideal S5000x128 .f32) (x2 x3 : Vec Ideal S128x64 .f32) (x4 : Vec Ideal S1x64 .f32)
    (p : Fin 5000) (m : Fin 64) :
    (tanh (addf (addf
        (matmul dot_S5000x128_S128x64_S5000x64_1_0_0_1_n_n none
          (truncf .bf16 (shapeCast S5000x128 x0 shapeCasts_S5000x128_S5000x128) bitsLt_bf16_f32)
          (truncf .bf16 x2 bitsLt_bf16_f32) (constant S5000x64 .f32 0x00000000#32))
        (matmul dot_S5000x128_S128x64_S5000x64_1_0_0_1_n_n none
          (truncf .bf16 (shapeCast S5000x128 x1 shapeCasts_S5000x128_S5000x128) bitsLt_bf16_f32)
          (truncf .bf16 x3 bitsLt_bf16_f32) (constant S5000x64 .f32 0x00000000#32)))
        (broadcastTo S5000x64 (shapeCast S1x64 x4 shapeCasts_S1x64_S1x64) broadcasts_S1x64_S5000x64))
        : FVec Ideal S5000x64 .f32) (ix2 p m)
      = denseAt x0 x1 x2 x3 (fun q => x4 (ix2 0 q)) p m := by
  unfold denseAt
  rw [show ∀ v : FVec Ideal S5000x64 .f32, tanh v (ix2 p m) = Ideal.tanh (v (ix2 p m)) from fun _ => rfl,
    addf_apply, addf_apply]
  refine congrArg Ideal.tanh (congrArg₂ (· + ·) (congrArg₂ (· + ·) ?_ ?_) ?_)
  · refine (matmul_zero_apply dot_S5000x128_S128x64_S5000x64_1_0_0_1_n_n rfl rfl rfl rfl rfl rfl none _ _ p m).trans ?_
    simp only [shapeCast_self, truncf_apply]
  · refine (matmul_zero_apply dot_S5000x128_S128x64_S5000x64_1_0_0_1_n_n rfl rfl rfl rfl rfl rfl none _ _ p m).trans ?_
    simp only [shapeCast_self, truncf_apply]
  · rw [shapeCast_self]
    exact broadcastTo_apply x4 broadcasts_S1x64_S5000x64 (ix2 p m) (ix2 0 m) (fun a => by
      match a with
      | ⟨0, _⟩ => rfl
      | ⟨1, _⟩ => rfl)

/-- The body's stored value at entry `(p, q)`: the closing map of the hidden layer of the loaded blocks. The closing
    product goes into a zero accumulator, so it is the sum over the 64 hidden columns of the hidden layer's entry
    `(p, m)` times the closing weight `(m, q)`; the closing bias row is read at column `q`. -/
theorem pay_apply (x0 x1 : Vec Ideal S5000x128 .f32) (x2 x3 : Vec Ideal S128x64 .f32) (x4 : Vec Ideal S1x64 .f32)
    (x5 : Vec Ideal S64x10 .f32) (x6 : Vec Ideal S1x10 .f32) (p : Fin 5000) (q : Fin 10) :
    k2_pay1 x0 x1 x2 x3 x4 x5 x6 (ix2 p q)
      = linAt (dense x0 x1 x2 x3 (fun q => x4 (ix2 0 q))) x5 (fun q => x6 (ix2 0 q)) p q := by
  unfold k2_pay1 linAt
  rw [addf_apply]
  refine congrArg₂ (· + ·) ?_ ?_
  · refine (matmul_zero_apply dot_S5000x64_S64x10_S5000x10_1_0_0_1_n_n rfl rfl rfl rfl rfl rfl none _ _ p q).trans ?_
    refine Finset.sum_congr rfl fun m _ => ?_
    rw [truncf_apply, truncf_apply, dense_apply]
    exact congrArg (· * x5 (ix2 m q)) (inner_apply x0 x1 x2 x3 x4 p m)
  · rw [shapeCast_self]
    exact broadcastTo_apply x6 broadcasts_S1x10_S5000x10 (ix2 p q) (ix2 0 q) (fun a => by
      match a with
      | ⟨0, _⟩ => rfl
      | ⟨1, _⟩ => rfl)

/-- The block index of each window at each of the 20 grid points: the two row-blocked inputs and the output move with
    the point, the weights and the bias rows stay at block `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

theorem t_lt (t : Fin cfg2.N) : t.val < 20 := t.isLt

/-- Row `p` of row block `t` as a row of the whole array. -/
def row (t : Fin cfg2.N) (p : Fin 5000) : Fin 100000 := ⟨t.val * 5000 + p.val, by have := t_lt t; have := p.isLt; omega⟩

/-- What point `t` writes back of a stored block `X`, at `(p, q)`, is `X` at `(p, q)`: the output's blocks are whole,
    so the written part of a block is the block. -/
theorem cut_out (X : S5000x10.Idx → EReal) (t : Fin cfg2.N) (p : Fin 5000) (q : Fin 10) :
    (cfg2.win 7).cut (grid2.coords t) X (ix2 p q) = X (ix2 p q) :=
  congrArg X (funext fun a => Fin.ext rfl)

/-- Block `t` of an output array `g`, read at `(p, q)`, is `g` at row `5000 t + p`, column `q`. -/
theorem read_out (g : S100000x10.Idx → EReal) (t : Fin cfg2.N) (p : Fin 5000) (q : Fin 10) :
    ((cfg2.win 7).blk t).view.read (Elt Ideal) g (ix2 p q) = g (ix2 (row t p) q) := by
  obtain ⟨-, -, -, -, -, -, -, -, -, -, -, -, -, -, e70, e71⟩ := idx_facts t
  refine (View.read_apply _ _).trans ?_
  refine (cast_eq _ _).trans ?_
  refine congrArg g (funext fun a => Fin.ext ?_)
  match a with
  | ⟨0, _⟩ => show win2_7.index t (0 : Fin 2) * 5000 + 1 * p.val = t.val * 5000 + p.val; omega
  | ⟨1, _⟩ => show win2_7.index t (1 : Fin 2) * 10 + 1 * q.val = q.val; omega

/-- An index of the output array is in point `t`'s block iff each coordinate is in the block's range on its axis. -/
theorem mem_blk (t : Fin cfg2.N) (i : S100000x10.Idx) :
    i ∈ ((cfg2.win 7).blk t).view.set ↔ ∀ a : Fin 2, win2_7.index t a * S5000x10.size a ≤ (i a).val
      ∧ (i a).val < win2_7.index t a * S5000x10.size a + S5000x10.size a := by
  show i ∈ ((View.whole main_v39).slice (win2_7.rect t)).set ↔ _
  rw [View.set_slice_whole, Rect.mem_set_unit]
  exact Iff.rfl

/-- Every block of rows is some point's. -/
theorem idx_onto : ∀ r : Fin 20, ∃ t : Fin cfg2.N, win2_7.index t = ![r.val, 0] :=
  (by decide +kernel : ∀ r : Fin 20, ∃ t : Fin grid2.N, win2_7.index t = ![r.val, 0])

/-- The 20 row blocks cover the output array. -/
theorem cover (i : S100000x10.Idx) :
    ∃ t : Fin cfg2.N, (cfg2.win 7).flush t = true ∧ i ∈ ((cfg2.win 7).blk t).view.set := by
  have hi0 : (i 0).val < 100000 := (i 0).isLt
  have hi1 : (i 1).val < 10 := (i 1).isLt
  obtain ⟨t, ht⟩ := idx_onto ⟨(i 0).val / 5000, by omega⟩
  have q0 : win2_7.index t (0 : Fin 2) = (i 0).val / 5000 := congrFun ht 0
  have q1 : win2_7.index t (1 : Fin 2) = 0 := congrFun ht 1
  refine ⟨t, flush2_7 t, ?_⟩
  rw [mem_blk]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 10 ≤ (i 1).val ∧ (i 1).val < win2_7.index t (1 : Fin 2) * 10 + 10; omega

variable (V : (c : Dev nD) → (b : Ref sig .tc) → Buf (Elt Ideal) ((c : Thread nD τ).loc b))

/-- The closing linear map of the dense stage of the arrays the region finds. -/
abbrev G (c : Dev nD) : S100000x10.Idx → EReal :=
  lin (dense (V c main_v36) (V c main_v29) (V c main_arg8) (V c main_arg9) (fun q => V c main_v37 (ix2 0 q)))
    (V c main_arg11) (fun q => V c main_v38 (ix2 0 q))

/-- WHAT POINT `t` WRITES BACK is block `t` of the closing map of the dense stage of the whole arrays: row `p` of a
    row block is row `5000 t + p` of its array, the weights and bias rows are read whole, and both contractions run
    over whole rows and columns. -/
theorem flushed_eq (c : Dev nD) (t : Fin cfg2.N) :
    (dat2 V c).flushed 7 t = ((cfg2.win 7).blk t).view.read (Elt Ideal) (G V c) := by
  show (cfg2.win 7).cut (grid2.coords t) ((dat2 V c).after 7 t) = _
  rw [after2_7]
  unfold out2_7
  rw [View.canon_unit_zero hz]
  simp only [View.ld_unit_zero (S := S5000x128) hz, View.ld_unit_zero (S := S128x64) hz, View.ld_unit_zero (S := S1x64) hz,
    View.ld_unit_zero (S := S64x10) hz, View.ld_unit_zero (S := S1x10) hz]
  obtain ⟨e00, e01, e10, e11, e20, e21, e30, e31, e40, e41, e50, e51, e60, e61, -, -⟩ := idx_facts t
  funext j
  obtain ⟨p, q, rfl⟩ : ∃ (p : Fin 5000) (q : Fin 10), j = ix2 p q := ⟨j 0, j 1, @eq_ix2 5000 10 j⟩
  have hmean : ∀ k : Fin 128, iblk2 V c 0 t (ix2 p k) = V c main_v36 (ix2 (row t p) k) := fun k => by
    show V c main_v36 (((cfg2.win 0).blk t).view.emb (ix2 p k)) = _
    refine congrArg (V c main_v36) (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  have hx : ∀ k : Fin 128, iblk2 V c 1 t (ix2 p k) = V c main_v29 (ix2 (row t p) k) := fun k => by
    show V c main_v29 (((cfg2.win 1).blk t).view.emb (ix2 p k)) = _
    refine congrArg (V c main_v29) (funext fun a => Fin.ext ?_)
    match a with
    | ⟨0, _⟩ => show win2_1.index t (0 : Fin 2) * 5000 + 1 * p.val = t.val * 5000 + p.val; omega
    | ⟨1, _⟩ => show win2_1.index t (1 : Fin 2) * 128 + 1 * k.val = k.val; omega
  have hwl : ∀ (k : Fin 128) (m : Fin 64), iblk2 V c 2 t (ix2 k m) = V c main_arg8 (ix2 k m) := fun k m => by
    show V c main_arg8 (((cfg2.win 2).blk t).view.emb (ix2 k m)) = _
    refine congrArg (V c main_arg8) (funext fun a => Fin.ext ?_)
    match a with
    | ⟨0, _⟩ => show win2_2.index t (0 : Fin 2) * 128 + 1 * k.val = k.val; omega
    | ⟨1, _⟩ => show win2_2.index t (1 : Fin 2) * 64 + 1 * m.val = m.val; omega
  have hwr : ∀ (k : Fin 128) (m : Fin 64), iblk2 V c 3 t (ix2 k m) = V c main_arg9 (ix2 k m) := fun k m => by
    show V c main_arg9 (((cfg2.win 3).blk t).view.emb (ix2 k m)) = _
    refine congrArg (V c main_arg9) (funext fun a => Fin.ext ?_)
    match a with
    | ⟨0, _⟩ => show win2_3.index t (0 : Fin 2) * 128 + 1 * k.val = k.val; omega
    | ⟨1, _⟩ => show win2_3.index t (1 : Fin 2) * 64 + 1 * m.val = m.val; omega
  have hb : ∀ m : Fin 64, iblk2 V c 4 t (ix2 (0 : Fin 1) m) = V c main_v37 (ix2 (0 : Fin 1) m) := fun m => by
    show V c main_v37 (((cfg2.win 4).blk t).view.emb (ix2 (0 : Fin 1) m)) = _
    refine congrArg (V c main_v37) (funext fun a => Fin.ext ?_)
    match a with
    | ⟨0, _⟩ => show win2_4.index t (0 : Fin 2) * 1 + 1 * 0 = 0; omega
    | ⟨1, _⟩ => show win2_4.index t (1 : Fin 2) * 64 + 1 * m.val = m.val; omega
  have hw : ∀ m : Fin 64, iblk2 V c 5 t (ix2 m q) = V c main_arg11 (ix2 m q) := fun m => by
    show V c main_arg11 (((cfg2.win 5).blk t).view.emb (ix2 m q)) = _
    refine congrArg (V c main_arg11) (funext fun a => Fin.ext ?_)
    match a with
    | ⟨0, _⟩ => show win2_5.index t (0 : Fin 2) * 64 + 1 * m.val = m.val; omega
    | ⟨1, _⟩ => show win2_5.index t (1 : Fin 2) * 10 + 1 * q.val = q.val; omega
  have hbl : iblk2 V c 6 t (ix2 (0 : Fin 1) q) = V c main_v38 (ix2 (0 : Fin 1) q) := by
    show V c main_v38 (((cfg2.win 6).blk t).view.emb (ix2 (0 : Fin 1) q)) = _
    refine congrArg (V c main_v38) (funext fun a => Fin.ext ?_)
    match a with
    | ⟨0, _⟩ => show win2_6.index t (0 : Fin 2) * 1 + 1 * 0 = 0; omega
    | ⟨1, _⟩ => show win2_6.index t (1 : Fin 2) * 10 + 1 * q.val = q.val; omega
  -- the written part is the stored block, and the block of `G` read at `(p, q)` is `G` at row `5000 t + p`
  refine (cut_out (k2_pay1 (iblk2 V c 0 t) (iblk2 V c 1 t) (iblk2 V c 2 t) (iblk2 V c 3 t) (iblk2 V c 4 t) (iblk2 V c 5 t)
    (iblk2 V c 6 t)) t p q).trans ?_
  refine Eq.trans ?_ (read_out (G V c) t p q).symm
  refine (pay_apply (iblk2 V c 0 t) (iblk2 V c 1 t) (iblk2 V c 2 t) (iblk2 V c 3 t) (iblk2 V c 4 t) (iblk2 V c 5 t)
    (iblk2 V c 6 t) p q).trans ?_
  refine Eq.trans ?_ (lin_apply _ _ _ (row t p) q).symm
  unfold linAt
  refine congrArg₂ (· + ·) ?_ hbl
  refine Finset.sum_congr rfl fun m _ => ?_
  rw [hw m, dense_apply, dense_apply]
  refine congrArg (· * V c main_arg11 (ix2 m q)) ?_
  unfold denseAt
  refine congrArg Ideal.tanh (congrArg₂ (· + ·) (congrArg₂ (· + ·) ?_ ?_) (hb m))
  · exact Finset.sum_congr rfl fun k _ => by rw [hmean k, hwl k m]
  · exact Finset.sum_congr rfl fun k _ => by rw [hx k, hwr k m]

/-- THE OUTPUT ARRAY after the region: the closing map of the dense stage of the arrays the region finds. -/
theorem final (c : Dev nD) : (dat2 V c).arrAt 7 cfg2.N = G V c :=
  (dat2 V c).arrAt_eq_of_cover 7 (G V c) (fun t _ => flushed_eq V c t) cover

end Cert.Sage.K2

end
-- ==== Proof.SrcRange.lean ====
/-
  The source row of the edge list, its wrap-around, and the in-range test that guards the gathered rows.

  The gather's start column is the source row with negative words wrapped by the node count (`w ↦ w + 100000` when
  `w < 0`). One program replaces a gathered row by a fill value unless the wrapped word lies in `[0, 99999]`. When every
  source word lies in `[-100000, 100000)` the wrapped word always does, so the test is true at every edge and the
  guarded gather is the plain gather. That range is what the precondition's last two conjuncts say.
-/
import proofs.«414861_j15625091022994_1_alg».proof.Defs
import proofs.«414861_j15625091022994_1_alg».proof.Proof.Gen.KernelIdeal
import proofs.«414861_j15625091022994_1_alg».proof.Proof.Gen.ReferenceIdeal
import proofs.«414861_j15625091022994_1_alg».proof.Proof.Gen.Pre_finite_inputs
import Idealize.ShloMosaic.Lib.ValueIdx
import Idealize.ShloMosaic.Lib.Pipeline.Value
import Idealize.ShloMosaic.Lib.ReduceAll
import Idealize.ShloMosaic.Lib.StableHlo.Predicate
import Idealize.ShloMosaic.Lib.WordArith

noncomputable section

namespace Cert.Sage.Src

open Idealize.ShloMosaic Idealize.ShloMosaic.ValueIdx Cert.KernelIdeal Cert.KernelIdeal.Gen

/-- The edge list's source row, as a vector of 1600000 words. -/
abbrev srcRow (e : IVec S2x1600000 32) : IVec S1600000 32 :=
  shapeCast S1600000 (extractStridedSlice S1x1600000 ![0, 0] e slices_S2x1600000_S1x1600000_0_0) shapeCasts_S1x1600000_S1600000

/-- Every source word lies in `[-100000, 100000)`. -/
def InRange (src : IVec S1600000 32) : Prop :=
  ∀ k : Fin 1600000, (-100000 : Int) ≤ (src (ix1 k)).toInt ∧ (src (ix1 k)).toInt < 100000

/-- The source row with negative words wrapped by the node count. -/
abbrev wrap (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-- The gather's start column. -/
abbrev startCol (src : IVec S1600000 32) : IVec S1600000x1 32 :=
  broadcastInDim S1600000x1 ![0] bcast_S1600000_S1600000x1_0 (wrap src)

/-- The in-range test of the start column: `0 ≤ start ≤ 99999`, folded over the column's one component. -/
abbrev inRange (src : IVec S1600000 32) : IVec S1600000 1 :=
  Host.reduce IntOp.andi
    (andi (cmpi .sge (startCol src) (broadcastInDim S1600000x1 ![] bcast_S_S1600000x1 (constantI S_ 32 0#32)))
      (cmpi .sle (startCol src) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-! ## Helpers: an `and`-reduction of ones, a broadcast read at an index, and the wrapped word's range -/

/-- A left fold by `and` from 1 over one-bit words that are all 1 is 1. -/
private theorem foldl_andi_ones {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A reduction by `and` from 1 of an array of ones is 1 at every result index, whatever axes it folds. -/
private theorem reduce_andi_ones {s t u : Shape} {axes : List (Fin s.rank)} (x : s.Idx → BitVec 1) (init : u.Idx → BitVec 1)
    (hr : s.ReducesTo axes t) (hu : 0 < u.numel) (hinit : init (Shape.Idx.first hu) = 1#1) (hx : ∀ i, x i = 1#1) (j : t.Idx) :
    Host.reduce IntOp.andi x init hr hu j = 1#1 := by
  rw [Host.reduce_eq_foldl, hinit]
  exact foldl_andi_ones x hx _

/-- A broadcast read at an index is the operand at some index. -/
private theorem broadcastInDim_read {α : Type} {s t : Shape} (dims : Fin s.rank → Fin t.rank) (hb : s.BroadcastsInDim t dims)
    (x : s.Idx → α) (j : t.Idx) : ∃ k, broadcastInDim t dims hb x j = x k := ⟨_, rfl⟩

/-- A word in `[-100000, 100000)`, with 100000 added when it is negative, lies in `[0, 99999]`: the sum stays far inside
    32 bits, so it is the integers' sum. -/
private theorem wrap_word (w : BitVec 32) (h0 : (-100000 : Int) ≤ w.toInt) (h1 : w.toInt < 100000) :
    0 ≤ (Scalar.select (IntOp.cmpi .slt w 0#32) (IntOp.addi w 100000#32) w).toInt
      ∧ (Scalar.select (IntOp.cmpi .slt w 0#32) (IntOp.addi w 100000#32) w).toInt ≤ 99999 := by
  have z : (0#32 : BitVec 32).toInt = 0 := by decide
  have c : (100000#32 : BitVec 32).toInt = 100000 := by decide
  by_cases hc : IntOp.cmpi .slt w 0#32 = 1#1
  · have hn : w.toInt < 0 := by rw [IntOp.cmpi_slt, z] at hc; exact hc
    rw [hc, select_one]
    show 0 ≤ (w + 100000#32).toInt ∧ (w + 100000#32).toInt ≤ 99999
    rw [WordArith.toInt_add_of_bounds _ _ (by rw [c]; omega) (by rw [c]; omega), c]
    omega
  · have hn : ¬ w.toInt < 0 := fun hh => hc (IntOp.cmpi_slt.2 (by rw [z]; exact hh))
    rw [eq_zero_of_ne_one hc, select_zero]
    omega

/-- With every source word in range, every wrapped word lies in `[0, 99999]`. -/
private theorem wrap_bounds (src : IVec S1600000 32) (h : InRange src) (j : S1600000.Idx) :
    0 ≤ (wrap src j).toInt ∧ (wrap src j).toInt ≤ 99999 := by
  have e : src j = src (ix1 (j 0)) := congrArg src (eq_ix1 j)
  have hj := h (j 0)
  exact wrap_word (src j) (by rw [e]; exact hj.1) (by rw [e]; exact hj.2)

/-! ## The four facts -/

/-- With every source word in range the test is true at every edge. -/
theorem inRange_eq_one (src : IVec S1600000 32) (h : InRange src) (k : S1600000.Idx) : inRange src k = 1#1 := by
  have z : (0#32 : BitVec 32).toInt = 0 := by decide
  have d : (99999#32 : BitVec 32).toInt = 99999 := by decide
  refine reduce_andi_ones _ _ _ _ rfl (fun i => ?_) k
  -- one element of the column: the start word is a wrapped word, and both comparisons hold of it
  obtain ⟨j, hj⟩ := broadcastInDim_read ![0] bcast_S1600000_S1600000x1_0 (wrap src) i
  have hb := wrap_bounds src h j
  show IntOp.andi (IntOp.cmpi .sge (startCol src i) 0#32) (IntOp.cmpi .sle (startCol src i) 99999#32) = 1#1
  rw [show startCol src i = wrap src j from hj]
  exact IntOp.andi_eq_one.2 ⟨IntOp.cmpi_sge.2 (by rw [z]; exact hb.1), IntOp.cmpi_sle.2 (by rw [d]; exact hb.2)⟩

/-- So the guarded rows are the gathered rows: 128 columns. -/
theorem guard_128 (src : IVec S1600000 32) (h : InRange src) (g f : S1600000x128.Idx → EReal) :
    select (broadcastInDim S1600000x128 ![0] bcast_S1600000_S1600000x128_0 (inRange src)) g f = g := by
  funext i
  rw [select_apply]
  obtain ⟨k, hk⟩ := broadcastInDim_read ![0] bcast_S1600000_S1600000x128_0 (inRange src) i
  rw [hk, inRange_eq_one src h k]
  exact select_one _ _

/-- So the guarded rows are the gathered rows: 64 columns. -/
theorem guard_64 (src : IVec S1600000 32) (h : InRange src) (g f : S1600000x64.Idx → EReal) :
    select (broadcastInDim S1600000x64 ![0] bcast_S1600000_S1600000x64_0 (inRange src)) g f = g := by
  funext i
  rw [select_apply]
  obtain ⟨k, hk⟩ := broadcastInDim_read ![0] bcast_S1600000_S1600000x64_0 (inRange src) i
  rw [hk, inRange_eq_one src h k]
  exact select_one _ _

/-- The precondition puts every source word in range. -/
theorem inRange_of_pre (m : (ℓ : Loc nD τ sig) → Buf (Elt Ideal) ℓ) (h : Cert.Pre_KernelIdeal m) (c : Dev nD) :
    InRange (srcRow (m ((c.tc : Thread nD τ).loc main_arg1))) := by
  intro k
  haveI : Subsingleton Cert.Pre_finite_inputs.S_.Idx := ⟨fun a b => funext fun d => d.elim0⟩
  have e := congrFun (h c) ix0
  dsimp only [Cert.Pre_finite_inputs.fn, Cert.Pre_finite_inputs.fn_part1, Cert.Pre_finite_inputs.fn_part2,
    Cert.Pre_finite_inputs.fn_part3, Cert.Pre_finite_inputs.fn_part4, andi] at e
  -- the last two conjuncts: every word is at least -100000, and every word is below 100000
  obtain ⟨e1, elt⟩ := IntOp.andi_eq_one.1 e
  obtain ⟨-, ege⟩ := IntOp.andi_eq_one.1 e1
  have g : IntOp.cmpi .sge (srcRow (m ((c.tc : Thread nD τ).loc main_arg1)) (ix1 k)) 4294867296#32 = 1#1 :=
    Host.reduce_andi_all _ _ _ _ _ ege (ix1 k)
  have l : IntOp.cmpi .slt (srcRow (m ((c.tc : Thread nD τ).loc main_arg1)) (ix1 k)) 100000#32 = 1#1 :=
    Host.reduce_andi_all _ _ _ _ _ elt (ix1 k)
  rw [IntOp.cmpi_sge, show (4294867296#32 : BitVec 32).toInt = -100000 from by decide] at g
  rw [IntOp.cmpi_slt, show (100000#32 : BitVec 32).toInt = 100000 from by decide] at l
  exact ⟨g, l⟩

end Cert.Sage.Src

end
-- ==== Proof.HostFns.lean ====
/-
  The mean aggregation, as each program spells it on whole arrays.

  Both programs gather the rows of `h` named by the wrapped source words, add them into the rows named by the
  destination words (a scatter-add into zeros), and scale row `i` by the reciprocal of `max (deg i) 1`, where `deg`
  counts the edges into `i` (a scatter-add of ones). One program guards the gathered rows by the in-range test and
  multiplies by the reciprocal `1 / max (deg i) 1`, computed once; the other gathers unguarded and divides by
  `max (deg i) 1`.
-/
import proofs.«414861_j15625091022994_1_alg».proof.Proof.SrcRange

noncomputable section

namespace Cert.Sage.K

open Idealize.ShloMosaic Cert.KernelIdeal Cert.KernelIdeal.Gen Cert.Sage.Src

/-- The edge list's destination row. -/
abbrev dstRow (e : IVec S2x1600000 32) : IVec S1600000 32 :=
  shapeCast S1600000 (extractStridedSlice S1x1600000 ![1, 0] e slices_S2x1600000_S1x1600000_1_0) shapeCasts_S1x1600000_S1600000

/-- The reciprocal of `max (deg i) 1`: ones scatter-added along the destination row, clamped below by one, inverted. -/
def invDeg (dst : IVec S1600000 32) : FVec Ideal S100000 .f32 :=
  Host.divf (broadcastInDim S100000 ![] bcast_S_S100000 (constant S_ .f32 0x3F800000#32))
    (maximumf (Host.scatterAdd scatter_S100000_S1600000x1_S1600000_n_0_0_1
        (broadcastInDim S100000 ![] bcast_S_S100000 (constant S_ .f32 0x00000000#32))
        (broadcastInDim S1600000x1 ![0] bcast_S1600000_S1600000x1_0 dst)
        (broadcastInDim S1600000 ![] bcast_S_S1600000 (constant S_ .f32 0x3F800000#32)))
      (broadcastInDim S100000 ![] bcast_S_S100000 (constant S_ .f32 0x3F800000#32)))

/-- The guarded mean aggregation of an array of 128 columns. -/
def mean128 (h : FVec Ideal S100000x128 .f32) (src dst : IVec S1600000 32) (inv : FVec Ideal S100000 .f32) :
    FVec Ideal S100000x128 .f32 :=
  mulf (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (select (broadcastInDim S1600000x128 ![0] bcast_S1600000_S1600000x128_0 (inRange src))
        (Host.gather gather_S100000x128_S1600000x1_S1600000x128_1_0_n_n_0_1_1128 h (startCol src))
        (broadcastInDim S1600000x128 ![] bcast_S_S1600000x128 (constant S_ .f32 0x7FC00000#32))))
    (broadcastInDim S100000x128 ![0, 1] bcast_S100000x1_S100000x128_0_1
      (broadcastInDim S100000x1 ![0] bcast_S100000_S100000x1_0 inv))

/-- The guarded mean aggregation of an array of 64 columns. -/
def mean64 (h : FVec Ideal S100000x64 .f32) (src dst : IVec S1600000 32) (inv : FVec Ideal S100000 .f32) :
    FVec Ideal S100000x64 .f32 :=
  mulf (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 dst)
      (select (broadcastInDim S1600000x64 ![0] bcast_S1600000_S1600000x64_0 (inRange src))
        (Host.gather gather_S100000x64_S1600000x1_S1600000x64_1_0_n_n_0_1_164 h (startCol src))
        (broadcastInDim S1600000x64 ![] bcast_S_S1600000x64 (constant S_ .f32 0x7FC00000#32))))
    (broadcastInDim S100000x64 ![0, 1] bcast_S100000x1_S100000x64_0_1
      (broadcastInDim S100000x1 ![0] bcast_S100000_S100000x1_0 inv))

end Cert.Sage.K

namespace Cert.Sage.R

open Idealize.ShloMosaic Cert.ReferenceIdeal Cert.ReferenceIdeal.Gen

/-- The edge list's source row. -/
abbrev srcRow (e : IVec S2x1600000 32) : IVec S1600000 32 :=
  shapeCast S1600000 (extractStridedSlice S1x1600000 ![0, 0] e slices_S2x1600000_S1x1600000_0_0) shapeCasts_S1x1600000_S1600000

/-- The edge list's destination row. -/
abbrev dstRow (e : IVec S2x1600000 32) : IVec S1600000 32 :=
  shapeCast S1600000 (extractStridedSlice S1x1600000 ![1, 0] e slices_S2x1600000_S1x1600000_1_0) shapeCasts_S1x1600000_S1600000

/-- The gather's start column: the source row with negative words wrapped by the node count. -/
abbrev startCol (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- `max (deg i) 1`. -/
def degMax (dst : IVec S1600000 32) : FVec Ideal S100000 .f32 :=
  maximumf (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    (broadcastInDim S100000 ![] bcast_S_S100000 (constant S_ .f32 0x3F800000#32))

/-- The mean aggregation of an array of 128 columns. -/
def mean128 (h : FVec Ideal S100000x128 .f32) (e : IVec S2x1600000 32) : FVec Ideal S100000x128 .f32 :=
  Host.divf (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 (dstRow e))
      (Host.gather gather_S100000x128_S1600000x1_S1600000x128_1_0_n_n_0_1_1128 h (startCol (srcRow e))))
    (broadcastInDim S100000x128 ![0, 1] bcast_S100000x1_S100000x128_0_1
      (broadcastInDim S100000x1 ![0] bcast_S100000_S100000x1_0 (degMax (dstRow e))))

/-- The mean aggregation of an array of 64 columns. -/
def mean64 (h : FVec Ideal S100000x64 .f32) (e : IVec S2x1600000 32) : FVec Ideal S100000x64 .f32 :=
  Host.divf (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 (dstRow e))
      (Host.gather gather_S100000x64_S1600000x1_S1600000x64_1_0_n_n_0_1_164 h (startCol (srcRow e))))
    (broadcastInDim S100000x64 ![0, 1] bcast_S100000x1_S100000x64_0_1
      (broadcastInDim S100000x1 ![0] bcast_S100000_S100000x1_0 (degMax (dstRow e))))

end Cert.Sage.R

end
-- ==== Proof.KHost0.lean ====
/-
  The first host operations, read from the launch contents.

  From buffer contents `W` the first stretch cuts the edge list (buffer `main_arg1`) into its source row (`main_v1`)
  and its destination row (`main_v3`), counts the edges into each node by a scatter-add of ones along the destination
  words, clamps the count below by one and inverts it (`main_v11`). Every buffer it does not write keeps its contents.
-/
import proofs.«414861_j15625091022994_1_alg».proof.Proof.Gen.KernelIdeal.Frame
import proofs.«414861_j15625091022994_1_alg».proof.Proof.HostFns
import Idealize.ShloMosaic.Lib.StableHlo.Run

set_option maxRecDepth 16384

noncomputable section

namespace Cert.Sage.S0

open Idealize.ShloMosaic Idealize.ShloMosaic.TcCoe Idealize.SL.Sem Idealize.ShloMosaic.StableHlo
open Cert.KernelIdeal Cert.KernelIdeal.Gen

variable (W : Valuation τ sig (Elt Ideal))

/-- The first stretch of @main. -/
abbrev run (W : Valuation τ sig (Elt Ideal)) : Valuation τ sig (Elt Ideal) :=
  StableHlo.after (hostOps0 (F := Ideal)) W

/-- The buffers the stretch writes. -/
def written : List (Ref sig .tc) :=
  [main_v0, main_v1, main_v2, main_v3, main_cst, main_v4, main_cst_0, main_v5, main_v6, main_v7, main_cst_1, main_v8,
   main_v9, main_cst_2, main_v10, main_v11]

/-- A buffer the stretch does not write keeps its contents. -/
theorem keep (b : Ref sig .tc) (hb : b ∉ written) : run W (Proc.devRef .tc b) = W (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun h => hb (by subst h; decide))))

-- the scatter-add stays folded: the equations never look inside it
attribute [local irreducible] Host.scatterAdd in
set_option maxHeartbeats 4000000 in
/-- The source row. -/
theorem src : run W (Proc.devRef .tc main_v1) = Src.srcRow (W (Proc.devRef .tc main_arg1)) := by
  dsimp only [run, hostOps0]
  after_results_simp
  rfl

attribute [local irreducible] Host.scatterAdd in
set_option maxHeartbeats 4000000 in
/-- The destination row. -/
theorem dst : run W (Proc.devRef .tc main_v3) = K.dstRow (W (Proc.devRef .tc main_arg1)) := by
  dsimp only [run, hostOps0]
  after_results_simp
  rfl

attribute [local irreducible] Host.scatterAdd in
set_option maxHeartbeats 4000000 in
/-- The reciprocal degrees. -/
theorem inv : run W (Proc.devRef .tc main_v11) = K.invDeg (K.dstRow (W (Proc.devRef .tc main_arg1))) := by
  dsimp only [run, hostOps0]
  after_results_simp
  unfold K.invDeg
  rfl

end Cert.Sage.S0

end
-- ==== Proof.HostRead.lean ====
/-
  Contents carried through a typed reference.

  A module-local function's operations are stated over references that carry the type of the tensor they hold; an
  operation's function receives its operands moved from the buffers' own type to the carried type and its result is
  moved back. A value written and read through one such reference is moved there and back: it is unchanged.
-/
import Idealize.ShloMosaic.Lib.StableHlo

namespace Cert.Sage

open Idealize.ShloMosaic Idealize.ShloMosaic.StableHlo

/-- Contents moved to a typed reference's buffer type and back are the contents. -/
theorem ofBuf_toBuf {sig : RefSig} {Val : EltTy → Type} {T : BufTy} (x : TRef sig T) (v : T.Contents Val) :
    x.ofBuf (x.toBuf v) = v := by
  obtain ⟨r, h, _, _⟩ := x
  subst h
  rfl

end Cert.Sage
-- ==== Proof.KHost01.lean ====
/-
  The host operations before the first pallas_call, after the edge rows and the reciprocal degrees are made, read
  from the contents they start from.

  From buffer contents `W` the stretch gathers the rows of the features (buffer `main_arg0`) at the wrapped source
  words (`main_v1`), guards them by the in-range test, scatter-adds them along the destination words (`main_v3`) and
  scales by the reciprocal degree (`main_v11`): the guarded mean aggregation. It also reshapes the layer's bias to a
  row. Every buffer it does not write keeps its contents.
-/
import proofs.«414861_j15625091022994_1_alg».proof.Proof.Gen.KernelIdeal.Frame
import proofs.«414861_j15625091022994_1_alg».proof.Proof.HostFns
import proofs.«414861_j15625091022994_1_alg».proof.Proof.HostRead
import Idealize.ShloMosaic.Lib.StableHlo.Run

set_option maxRecDepth 16384

noncomputable section

namespace Cert.Sage.S01

open Idealize.ShloMosaic Idealize.ShloMosaic.TcCoe Idealize.SL.Sem Idealize.ShloMosaic.StableHlo
open Cert.KernelIdeal Cert.KernelIdeal.Gen

variable (W : Valuation τ sig (Elt Ideal))

/-- The stretch: the gather-and-guard function's operations, then @main's. -/
abbrev run (W : Valuation τ sig (Elt Ideal)) : Valuation τ sig (Elt Ideal) :=
  StableHlo.after (hostOps0_2 (F := Ideal)) (StableHlo.after (hostOps0_1 (F := Ideal)) W)

/-- The buffers the stretch writes. -/
def written : List (Ref sig .tc) :=
  [main_call0_c, main_call0_v0, main_call0_v1, main_call0_c_0, main_call0_v2, main_call0_v3, main_call0_v4, main_call0_v5,
   main_call0_c_1, main_call0_c_2, main_call0_v6, main_call0_v7, main_call0_v8, main_call0_v9, main_call0_v10, main_call0_v11,
   main_call0_c_3, main_call0_v12, main_call0_v13, main_call0_v14, main_call0_cst, main_call0_v15, main_v12,
   main_cst_3, main_v13, main_v14, main_v15, main_v16, main_v17, main_v18, main_v19]

/-- A buffer the stretch does not write keeps its contents. -/
theorem keep (b : Ref sig .tc) (hb : b ∉ written) : run W (Proc.devRef .tc b) = W (Proc.devRef .tc b) :=
  (StableHlo.after_of_forall_not_mem (b := Proc.devRef .tc b) _ _ (List.forall_iff_forall_mem.mp (by
    simp only [hostOps0_2, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun h => hb (by subst h; decide))))).trans
  (StableHlo.after_of_forall_not_mem (b := Proc.devRef .tc b) _ _ (List.forall_iff_forall_mem.mp (by
    simp only [hostOps0_1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun h => hb (by subst h; decide)))))

-- the gather, the scatter-add and the fold of the in-range test stay folded: the equation never looks inside them
attribute [local irreducible] Host.reduce Host.gather Host.scatterAdd in
set_option maxHeartbeats 4000000 in
/-- The aggregated means the region reads: the guarded mean aggregation of the gathered array. -/
theorem mean : run W (Proc.devRef .tc main_v18)
    = K.mean128 (W (Proc.devRef .tc main_arg0)) (W (Proc.devRef .tc main_v1)) (W (Proc.devRef .tc main_v3))
        (W (Proc.devRef .tc main_v11)) := by
  dsimp only [run, hostOps0_1, hostOps0_2]
  after_results_simp
  simp only [ofBuf_toBuf]
  unfold K.mean128
  rfl

set_option maxHeartbeats 4000000 in
/-- The layer's bias as a row. -/
theorem bias : run W (Proc.devRef .tc main_v19)
    = shapeCast S1x64 (W (Proc.devRef .tc main_arg4)) shapeCasts_S64_S1x64 := by
  dsimp only [run, hostOps0_1, hostOps0_2]
  after_results_simp
  rfl

end Cert.Sage.S01

end
-- ==== Proof.KHost1.lean ====
/-
  The host operations before the second pallas_call, after the edge rows and the reciprocal degrees are made, read
  from the contents they start from.

  From buffer contents `W` the stretch gathers the rows of the first hidden layer (buffer `main_v20`) at the wrapped source
  words (`main_v1`), guards them by the in-range test, scatter-adds them along the destination words (`main_v3`) and
  scales by the reciprocal degree (`main_v11`): the guarded mean aggregation. It also reshapes the layer's bias to a
  row. Every buffer it does not write keeps its contents.
-/
import proofs.«414861_j15625091022994_1_alg».proof.Proof.Gen.KernelIdeal.Frame
import proofs.«414861_j15625091022994_1_alg».proof.Proof.HostFns
import proofs.«414861_j15625091022994_1_alg».proof.Proof.HostRead
import Idealize.ShloMosaic.Lib.StableHlo.Run

set_option maxRecDepth 16384

noncomputable section

namespace Cert.Sage.S1

open Idealize.ShloMosaic Idealize.ShloMosaic.TcCoe Idealize.SL.Sem Idealize.ShloMosaic.StableHlo
open Cert.KernelIdeal Cert.KernelIdeal.Gen

variable (W : Valuation τ sig (Elt Ideal))

/-- The stretch: the gather-and-guard function's operations, then @main's. -/
abbrev run (W : Valuation τ sig (Elt Ideal)) : Valuation τ sig (Elt Ideal) :=
  StableHlo.after (hostOps1_1 (F := Ideal)) (StableHlo.after (hostOps1 (F := Ideal)) W)

/-- The buffers the stretch writes. -/
def written : List (Ref sig .tc) :=
  [main_call1_c, main_call1_v0, main_call1_v1, main_call1_c_0, main_call1_v2, main_call1_v3, main_call1_v4, main_call1_v5,
   main_call1_c_1, main_call1_c_2, main_call1_v6, main_call1_v7, main_call1_v8, main_call1_v9, main_call1_v10, main_call1_v11,
   main_call1_c_3, main_call1_v12, main_call1_v13, main_call1_v14, main_call1_cst, main_call1_v15, main_v21,
   main_cst_4, main_v22, main_v23, main_v24, main_v25, main_v26, main_v27, main_v28]

/-- A buffer the stretch does not write keeps its contents. -/
theorem keep (b : Ref sig .tc) (hb : b ∉ written) : run W (Proc.devRef .tc b) = W (Proc.devRef .tc b) :=
  (StableHlo.after_of_forall_not_mem (b := Proc.devRef .tc b) _ _ (List.forall_iff_forall_mem.mp (by
    simp only [hostOps1_1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun h => hb (by subst h; decide))))).trans
  (StableHlo.after_of_forall_not_mem (b := Proc.devRef .tc b) _ _ (List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun h => hb (by subst h; decide)))))

-- the gather, the scatter-add and the fold of the in-range test stay folded: the equation never looks inside them
attribute [local irreducible] Host.reduce Host.gather Host.scatterAdd in
set_option maxHeartbeats 4000000 in
/-- The aggregated means the region reads: the guarded mean aggregation of the gathered array. -/
theorem mean : run W (Proc.devRef .tc main_v27)
    = K.mean64 (W (Proc.devRef .tc main_v20)) (W (Proc.devRef .tc main_v1)) (W (Proc.devRef .tc main_v3))
        (W (Proc.devRef .tc main_v11)) := by
  dsimp only [run, hostOps1, hostOps1_1]
  after_results_simp
  simp only [ofBuf_toBuf]
  unfold K.mean64
  rfl

set_option maxHeartbeats 4000000 in
/-- The layer's bias as a row. -/
theorem bias : run W (Proc.devRef .tc main_v28)
    = shapeCast S1x128 (W (Proc.devRef .tc main_arg7)) shapeCasts_S128_S1x128 := by
  dsimp only [run, hostOps1, hostOps1_1]
  after_results_simp
  rfl

end Cert.Sage.S1

end
-- ==== Proof.KHost2.lean ====
/-
  The host operations between the second and the third pallas_call, read from the contents they start from.

  From buffer contents `W` the stretch gathers the rows of the second hidden layer (buffer `main_v29`) at the wrapped
  source words (`main_v1`), guards them by the in-range test, scatter-adds them along the destination words
  (`main_v3`) and scales by the reciprocal degree (`main_v11`): the guarded mean aggregation. It also reshapes the
  last layer's bias and the closing bias to rows. Every buffer it does not write keeps its contents.
-/
import proofs.«414861_j15625091022994_1_alg».proof.Proof.Gen.KernelIdeal.Frame
import proofs.«414861_j15625091022994_1_alg».proof.Proof.HostFns
import proofs.«414861_j15625091022994_1_alg».proof.Proof.HostRead
import Idealize.ShloMosaic.Lib.StableHlo.Run

set_option maxRecDepth 16384

noncomputable section

namespace Cert.Sage.S2

open Idealize.ShloMosaic Idealize.ShloMosaic.TcCoe Idealize.SL.Sem Idealize.ShloMosaic.StableHlo
open Cert.KernelIdeal Cert.KernelIdeal.Gen

variable (W : Valuation τ sig (Elt Ideal))

/-- The stretch after the second region: the gather-and-guard function's operations, then @main's. -/
abbrev run (W : Valuation τ sig (Elt Ideal)) : Valuation τ sig (Elt Ideal) :=
  StableHlo.after (hostOps2_1 (F := Ideal)) (StableHlo.after (hostOps2 (F := Ideal)) W)

/-- The buffers the stretch writes. -/
def written : List (Ref sig .tc) :=
  [main_call2_c, main_call2_v0, main_call2_v1, main_call2_c_0, main_call2_v2, main_call2_v3, main_call2_v4, main_call2_v5,
   main_call2_c_1, main_call2_c_2, main_call2_v6, main_call2_v7, main_call2_v8, main_call2_v9, main_call2_v10, main_call2_v11,
   main_call2_c_3, main_call2_v12, main_call2_v13, main_call2_v14, main_call2_cst, main_call2_v15, main_v30,
   main_cst_5, main_v31, main_v32, main_v33, main_v34, main_v35, main_v36, main_v37, main_v38]

/-- A buffer the stretch does not write keeps its contents. -/
theorem keep (b : Ref sig .tc) (hb : b ∉ written) : run W (Proc.devRef .tc b) = W (Proc.devRef .tc b) :=
  (StableHlo.after_of_forall_not_mem (b := Proc.devRef .tc b) _ _ (List.forall_iff_forall_mem.mp (by
    simp only [hostOps2_1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun h => hb (by subst h; decide))))).trans
  (StableHlo.after_of_forall_not_mem (b := Proc.devRef .tc b) _ _ (List.forall_iff_forall_mem.mp (by
    simp only [hostOps2, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun h => hb (by subst h; decide)))))

-- the gather, the scatter-add and the fold of the in-range test stay folded: the equation never looks inside them
attribute [local irreducible] Host.reduce Host.gather Host.scatterAdd in
set_option maxHeartbeats 4000000 in
/-- The aggregated means the third region reads: the guarded mean aggregation of the second hidden layer. -/
theorem mean : run W (Proc.devRef .tc main_v36)
    = K.mean128 (W (Proc.devRef .tc main_v29)) (W (Proc.devRef .tc main_v1)) (W (Proc.devRef .tc main_v3))
        (W (Proc.devRef .tc main_v11)) := by
  dsimp only [run, hostOps2, hostOps2_1]
  after_results_simp
  simp only [ofBuf_toBuf]
  unfold K.mean128
  rfl

set_option maxHeartbeats 4000000 in
/-- The last layer's bias as a row. -/
theorem bias : run W (Proc.devRef .tc main_v37)
    = shapeCast S1x64 (W (Proc.devRef .tc main_arg10)) shapeCasts_S64_S1x64 := by
  dsimp only [run, hostOps2, hostOps2_1]
  after_results_simp
  rfl

set_option maxHeartbeats 4000000 in
/-- The closing bias as a row. -/
theorem biasLin : run W (Proc.devRef .tc main_v38)
    = shapeCast S1x10 (W (Proc.devRef .tc main_arg12)) shapeCasts_S10_S1x10 := by
  dsimp only [run, hostOps2, hostOps2_1]
  after_results_simp
  rfl

end Cert.Sage.S2

end
-- ==== Proof.KValue.lean ====
/-
  What the kernel's program leaves in its result array.

  The program's buffers pass through ten boundaries: host stretches and the three regions. Reading them in order —
  the edge rows and reciprocal degrees from the first stretch; before each region the guarded mean aggregation of
  the previous layer and the bias as a row; after each region its output array as the dense stage of what it found —
  the result array ends as the closing linear map of the third dense stage, each stage built on the one before, all
  of them functions of the argument arrays alone, since no stretch and no region writes an argument or the edge rows.
-/
import proofs.«414861_j15625091022994_1_alg».proof.Proof.Dense0
import proofs.«414861_j15625091022994_1_alg».proof.Proof.Dense1
import proofs.«414861_j15625091022994_1_alg».proof.Proof.Dense2
import proofs.«414861_j15625091022994_1_alg».proof.Proof.KHost0
import proofs.«414861_j15625091022994_1_alg».proof.Proof.KHost01
import proofs.«414861_j15625091022994_1_alg».proof.Proof.KHost1
import proofs.«414861_j15625091022994_1_alg».proof.Proof.KHost2

set_option maxRecDepth 16384

noncomputable section

namespace Cert.Sage.KNet

open Idealize.ShloMosaic Idealize.ShloMosaic.TcCoe Idealize.ShloMosaic.ValueIdx Idealize.SL.Sem Cert.KernelIdeal Cert.KernelIdeal.Gen Cert.Sage

/-- The first hidden layer as the kernel's program computes it. -/
def hidden1 (x : FVec Ideal S100000x128 .f32) (e : IVec S2x1600000 32) (w1l w1r : FVec Ideal S128x64 .f32)
    (b1 : FVec Ideal S64 .f32) : S100000x64.Idx → EReal :=
  dense (K.mean128 x (Src.srcRow e) (K.dstRow e) (K.invDeg (K.dstRow e))) x w1l w1r
    (fun q => shapeCast S1x64 b1 shapeCasts_S64_S1x64 (ix2 0 q))

/-- The second hidden layer. -/
def hidden2 (h1 : FVec Ideal S100000x64 .f32) (e : IVec S2x1600000 32) (w2l w2r : FVec Ideal S64x128 .f32)
    (b2 : FVec Ideal S128 .f32) : S100000x128.Idx → EReal :=
  dense (K.mean64 h1 (Src.srcRow e) (K.dstRow e) (K.invDeg (K.dstRow e))) h1 w2l w2r
    (fun q => shapeCast S1x128 b2 shapeCasts_S128_S1x128 (ix2 0 q))

/-- The third hidden layer followed by the closing linear map. -/
def output (h2 : FVec Ideal S100000x128 .f32) (e : IVec S2x1600000 32) (w3l w3r : FVec Ideal S128x64 .f32)
    (b3 : FVec Ideal S64 .f32) (wlin : FVec Ideal S64x10 .f32) (blin : FVec Ideal S10 .f32) : S100000x10.Idx → EReal :=
  lin (dense (K.mean128 h2 (Src.srcRow e) (K.dstRow e) (K.invDeg (K.dstRow e))) h2 w3l w3r
      (fun q => shapeCast S1x64 b3 shapeCasts_S64_S1x64 (ix2 0 q)))
    wlin (fun q => shapeCast S1x10 blin shapeCasts_S10_S1x10 (ix2 0 q))

variable (m : (ℓ : Loc nD τ sig) → Buf (Elt Ideal) ℓ) (ρ : Dev nD → PrngReg)

/-- The network on the argument arrays of a memory. -/
def net (c : Dev nD) : S100000x10.Idx → EReal :=
  output
    (hidden2
      (hidden1 (m ((c : Thread nD τ).loc main_arg0)) (m ((c : Thread nD τ).loc main_arg1)) (m ((c : Thread nD τ).loc main_arg2)) (m ((c : Thread nD τ).loc main_arg3)) (m ((c : Thread nD τ).loc main_arg4)))
      (m ((c : Thread nD τ).loc main_arg1)) (m ((c : Thread nD τ).loc main_arg5)) (m ((c : Thread nD τ).loc main_arg6)) (m ((c : Thread nD τ).loc main_arg7)))
    (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12))

-- one long chain of boundary facts: about ten times the default budget
set_option maxHeartbeats 4000000 in
/-- THE RESULT ARRAY at the last boundary is the network of the argument arrays. -/
theorem value (c : Dev nD) : W10 m ρ c (Proc.devRef .tc main_v39) = net m c := by
  -- the first stretch: the edge rows and the reciprocal degrees; everything else as launched
  have a1 (b : Ref sig .tc) (hb : b ∉ S0.written) : W1 m ρ c (Proc.devRef .tc b) = m ((c : Thread nD τ).loc b) :=
    (S0.keep (W0 m ρ c) b hb).trans (show W0 m ρ c (Proc.devRef .tc b) = m ((c : Thread nD τ).loc b) from rfl)
  have s1 : W1 m ρ c (Proc.devRef .tc main_v1) = Src.srcRow (m ((c : Thread nD τ).loc main_arg1)) := S0.src (W0 m ρ c)
  have d1 : W1 m ρ c (Proc.devRef .tc main_v3) = K.dstRow (m ((c : Thread nD τ).loc main_arg1)) := S0.dst (W0 m ρ c)
  have i1 : W1 m ρ c (Proc.devRef .tc main_v11) = K.invDeg (K.dstRow (m ((c : Thread nD τ).loc main_arg1))) := S0.inv (W0 m ρ c)
  -- before the first region
  have a3 (b : Ref sig .tc) (hb : b ∉ S01.written) : W3 m ρ c (Proc.devRef .tc b) = W1 m ρ c (Proc.devRef .tc b) :=
    S01.keep (W1 m ρ c) b hb
  have e3mean : V3 m ρ c main_v18 = K.mean128 (m ((c : Thread nD τ).loc main_arg0)) (Src.srcRow (m ((c : Thread nD τ).loc main_arg1)))
      (K.dstRow (m ((c : Thread nD τ).loc main_arg1))) (K.invDeg (K.dstRow (m ((c : Thread nD τ).loc main_arg1)))) := by
    refine (S01.mean (W1 m ρ c)).trans ?_
    rw [a1 main_arg0 (by decide), s1, d1, i1]
  have e3bias : V3 m ρ c main_v19 = shapeCast S1x64 (m ((c : Thread nD τ).loc main_arg4)) shapeCasts_S64_S1x64 := by
    refine (S01.bias (W1 m ρ c)).trans ?_
    rw [a1 main_arg4 (by decide)]
  have e3x : V3 m ρ c main_arg0 = (m ((c : Thread nD τ).loc main_arg0)) := (a3 main_arg0 (by decide)).trans (a1 main_arg0 (by decide))
  have e3wl : V3 m ρ c main_arg2 = (m ((c : Thread nD τ).loc main_arg2)) := (a3 main_arg2 (by decide)).trans (a1 main_arg2 (by decide))
  have e3wr : V3 m ρ c main_arg3 = (m ((c : Thread nD τ).loc main_arg3)) := (a3 main_arg3 (by decide)).trans (a1 main_arg3 (by decide))
  -- after the first region: its output is the first hidden layer; the rest as before it
  have a4 (b : Ref sig .tc) (hb : ∀ w, Pipeline.arrRef spec0 w ≠ b) (h3 : b ∉ S01.written) (h1 : b ∉ S0.written) :
      W4 m ρ c (Proc.devRef .tc b) = m ((c : Thread nD τ).loc b) :=
    (W4_of_ne m ρ c b hb).trans ((a3 b h3).trans (a1 b h1))
  have e4h : W4 m ρ c (Proc.devRef .tc main_v20)
      = hidden1 (m ((c : Thread nD τ).loc main_arg0)) (m ((c : Thread nD τ).loc main_arg1)) (m ((c : Thread nD τ).loc main_arg2)) (m ((c : Thread nD τ).loc main_arg3)) (m ((c : Thread nD τ).loc main_arg4)) := by
    refine (W4_arr m ρ c 5).trans ?_
    rw [K0.final (V3 m ρ) c]
    show dense (V3 m ρ c main_v18) (V3 m ρ c main_arg0) (V3 m ρ c main_arg2) (V3 m ρ c main_arg3)
      (fun q => V3 m ρ c main_v19 (ix2 0 q)) = _
    rw [e3mean, e3x, e3wl, e3wr, e3bias]
    rfl
  have s4 : W4 m ρ c (Proc.devRef .tc main_v1) = Src.srcRow (m ((c : Thread nD τ).loc main_arg1)) :=
    (W4_of_ne m ρ c main_v1 (by decide)).trans ((a3 main_v1 (by decide)).trans s1)
  have d4 : W4 m ρ c (Proc.devRef .tc main_v3) = K.dstRow (m ((c : Thread nD τ).loc main_arg1)) :=
    (W4_of_ne m ρ c main_v3 (by decide)).trans ((a3 main_v3 (by decide)).trans d1)
  have i4 : W4 m ρ c (Proc.devRef .tc main_v11) = K.invDeg (K.dstRow (m ((c : Thread nD τ).loc main_arg1))) :=
    (W4_of_ne m ρ c main_v11 (by decide)).trans ((a3 main_v11 (by decide)).trans i1)
  -- before the second region
  have a6 (b : Ref sig .tc) (hb : b ∉ S1.written) : W6 m ρ c (Proc.devRef .tc b) = W4 m ρ c (Proc.devRef .tc b) :=
    S1.keep (W4 m ρ c) b hb
  have e6mean : V6 m ρ c main_v27 = K.mean64
      (hidden1 (m ((c : Thread nD τ).loc main_arg0)) (m ((c : Thread nD τ).loc main_arg1)) (m ((c : Thread nD τ).loc main_arg2)) (m ((c : Thread nD τ).loc main_arg3)) (m ((c : Thread nD τ).loc main_arg4)))
      (Src.srcRow (m ((c : Thread nD τ).loc main_arg1))) (K.dstRow (m ((c : Thread nD τ).loc main_arg1))) (K.invDeg (K.dstRow (m ((c : Thread nD τ).loc main_arg1)))) := by
    refine (S1.mean (W4 m ρ c)).trans ?_
    rw [e4h, s4, d4, i4]
  have e6bias : V6 m ρ c main_v28 = shapeCast S1x128 (m ((c : Thread nD τ).loc main_arg7)) shapeCasts_S128_S1x128 := by
    refine (S1.bias (W4 m ρ c)).trans ?_
    rw [a4 main_arg7 (by decide) (by decide) (by decide)]
  have e6x : V6 m ρ c main_v20
      = hidden1 (m ((c : Thread nD τ).loc main_arg0)) (m ((c : Thread nD τ).loc main_arg1)) (m ((c : Thread nD τ).loc main_arg2)) (m ((c : Thread nD τ).loc main_arg3)) (m ((c : Thread nD τ).loc main_arg4)) :=
    (a6 main_v20 (by decide)).trans e4h
  have e6wl : V6 m ρ c main_arg5 = (m ((c : Thread nD τ).loc main_arg5)) :=
    (a6 main_arg5 (by decide)).trans (a4 main_arg5 (by decide) (by decide) (by decide))
  have e6wr : V6 m ρ c main_arg6 = (m ((c : Thread nD τ).loc main_arg6)) :=
    (a6 main_arg6 (by decide)).trans (a4 main_arg6 (by decide) (by decide) (by decide))
  -- after the second region
  have a7 (b : Ref sig .tc) (hb : ∀ w, Pipeline.arrRef spec1 w ≠ b) (h6 : b ∉ S1.written)
      (hb0 : ∀ w, Pipeline.arrRef spec0 w ≠ b) (h3 : b ∉ S01.written) (h1 : b ∉ S0.written) :
      W7 m ρ c (Proc.devRef .tc b) = m ((c : Thread nD τ).loc b) :=
    (W7_of_ne m ρ c b hb).trans ((a6 b h6).trans (a4 b hb0 h3 h1))
  have e7h : W7 m ρ c (Proc.devRef .tc main_v29)
      = hidden2 (hidden1 (m ((c : Thread nD τ).loc main_arg0)) (m ((c : Thread nD τ).loc main_arg1)) (m ((c : Thread nD τ).loc main_arg2)) (m ((c : Thread nD τ).loc main_arg3)) (m ((c : Thread nD τ).loc main_arg4)))
          (m ((c : Thread nD τ).loc main_arg1)) (m ((c : Thread nD τ).loc main_arg5)) (m ((c : Thread nD τ).loc main_arg6)) (m ((c : Thread nD τ).loc main_arg7)) := by
    refine (W7_arr m ρ c 5).trans ?_
    rw [K1.final (V6 m ρ) c]
    show dense (V6 m ρ c main_v27) (V6 m ρ c main_v20) (V6 m ρ c main_arg5) (V6 m ρ c main_arg6)
      (fun q => V6 m ρ c main_v28 (ix2 0 q)) = _
    rw [e6mean, e6x, e6wl, e6wr, e6bias]
    rfl
  have s7 : W7 m ρ c (Proc.devRef .tc main_v1) = Src.srcRow (m ((c : Thread nD τ).loc main_arg1)) :=
    (W7_of_ne m ρ c main_v1 (by decide)).trans ((a6 main_v1 (by decide)).trans s4)
  have d7 : W7 m ρ c (Proc.devRef .tc main_v3) = K.dstRow (m ((c : Thread nD τ).loc main_arg1)) :=
    (W7_of_ne m ρ c main_v3 (by decide)).trans ((a6 main_v3 (by decide)).trans d4)
  have i7 : W7 m ρ c (Proc.devRef .tc main_v11) = K.invDeg (K.dstRow (m ((c : Thread nD τ).loc main_arg1))) :=
    (W7_of_ne m ρ c main_v11 (by decide)).trans ((a6 main_v11 (by decide)).trans i4)
  -- before the third region
  have a9 (b : Ref sig .tc) (hb : b ∉ S2.written) : W9 m ρ c (Proc.devRef .tc b) = W7 m ρ c (Proc.devRef .tc b) :=
    S2.keep (W7 m ρ c) b hb
  have a9' (b : Ref sig .tc) (h9 : b ∉ S2.written) (hb1 : ∀ w, Pipeline.arrRef spec1 w ≠ b) (h6 : b ∉ S1.written)
      (hb0 : ∀ w, Pipeline.arrRef spec0 w ≠ b) (h3 : b ∉ S01.written) (h1 : b ∉ S0.written) :
      V9 m ρ c b = m ((c : Thread nD τ).loc b) :=
    (a9 b h9).trans (a7 b hb1 h6 hb0 h3 h1)
  have e9mean : V9 m ρ c main_v36 = K.mean128
      (hidden2 (hidden1 (m ((c : Thread nD τ).loc main_arg0)) (m ((c : Thread nD τ).loc main_arg1)) (m ((c : Thread nD τ).loc main_arg2)) (m ((c : Thread nD τ).loc main_arg3)) (m ((c : Thread nD τ).loc main_arg4)))
          (m ((c : Thread nD τ).loc main_arg1)) (m ((c : Thread nD τ).loc main_arg5)) (m ((c : Thread nD τ).loc main_arg6)) (m ((c : Thread nD τ).loc main_arg7)))
      (Src.srcRow (m ((c : Thread nD τ).loc main_arg1))) (K.dstRow (m ((c : Thread nD τ).loc main_arg1))) (K.invDeg (K.dstRow (m ((c : Thread nD τ).loc main_arg1)))) := by
    refine (S2.mean (W7 m ρ c)).trans ?_
    rw [e7h, s7, d7, i7]
  have e9bias : V9 m ρ c main_v37 = shapeCast S1x64 (m ((c : Thread nD τ).loc main_arg10)) shapeCasts_S64_S1x64 := by
    refine (S2.bias (W7 m ρ c)).trans ?_
    rw [a7 main_arg10 (by decide) (by decide) (by decide) (by decide) (by decide)]
  have e9biasLin : V9 m ρ c main_v38 = shapeCast S1x10 (m ((c : Thread nD τ).loc main_arg12)) shapeCasts_S10_S1x10 := by
    refine (S2.biasLin (W7 m ρ c)).trans ?_
    rw [a7 main_arg12 (by decide) (by decide) (by decide) (by decide) (by decide)]
  have e9x : V9 m ρ c main_v29
      = hidden2 (hidden1 (m ((c : Thread nD τ).loc main_arg0)) (m ((c : Thread nD τ).loc main_arg1)) (m ((c : Thread nD τ).loc main_arg2)) (m ((c : Thread nD τ).loc main_arg3)) (m ((c : Thread nD τ).loc main_arg4)))
          (m ((c : Thread nD τ).loc main_arg1)) (m ((c : Thread nD τ).loc main_arg5)) (m ((c : Thread nD τ).loc main_arg6)) (m ((c : Thread nD τ).loc main_arg7)) :=
    (a9 main_v29 (by decide)).trans e7h
  have e9wl : V9 m ρ c main_arg8 = (m ((c : Thread nD τ).loc main_arg8)) :=
    a9' main_arg8 (by decide) (by decide) (by decide) (by decide) (by decide) (by decide)
  have e9wr : V9 m ρ c main_arg9 = (m ((c : Thread nD τ).loc main_arg9)) :=
    a9' main_arg9 (by decide) (by decide) (by decide) (by decide) (by decide) (by decide)
  have e9wlin : V9 m ρ c main_arg11 = (m ((c : Thread nD τ).loc main_arg11)) :=
    a9' main_arg11 (by decide) (by decide) (by decide) (by decide) (by decide) (by decide)
  -- after the third region: the result
  refine (W10_arr m ρ c 7).trans ?_
  rw [K2.final (V9 m ρ) c]
  show lin (dense (V9 m ρ c main_v36) (V9 m ρ c main_v29) (V9 m ρ c main_arg8) (V9 m ρ c main_arg9)
      (fun q => V9 m ρ c main_v37 (ix2 0 q))) (V9 m ρ c main_arg11) (fun q => V9 m ρ c main_v38 (ix2 0 q)) = _
  rw [e9mean, e9x, e9wl, e9wr, e9bias, e9wlin, e9biasLin]
  rfl

end Cert.Sage.KNet

end
-- ==== Proof.RefDense.lean ====
/-
  The reference's dense stage and closing linear map, read entry by entry.

  On whole arrays the reference computes `tanh (mean · Wl + x · Wr + b)` with two matrix products, two additions and a
  bias row broadcast down the rows, then (after the last layer) `h · Wlin + blin`. At entry `(p, q)` each product is the
  sum over the contracted axis, the broadcast bias reads `b q`, and the whole is the entry of `Cert.Sage.dense` /
  `Cert.Sage.lin`.
-/
import proofs.«414861_j15625091022994_1_alg».proof.Proof.Gen.ReferenceIdeal
import proofs.«414861_j15625091022994_1_alg».proof.Proof.Spec
import proofs.«414861_j15625091022994_1_alg».proof.Proof.LibPlainMatmul
import Idealize.ShloMosaic.Lib.ValueIdx
import Idealize.ShloMosaic.Lib.Pipeline.Value
import Idealize.ShloMosaic.Lib.IdealHost

noncomputable section

namespace Cert.Sage.Ref

open Idealize.ShloMosaic Idealize.ShloMosaic.ValueIdx Cert.ReferenceIdeal Cert.ReferenceIdeal.Gen Cert.Sage

/-- The reference's dense stage of a `128 → 64` layer, on whole arrays. -/
def layer_128_64 (mean x : FVec Ideal S100000x128 .f32) (wl wr : FVec Ideal S128x64 .f32) (b : FVec Ideal S64 .f32) :
    FVec Ideal S100000x64 .f32 :=
  Host.tanh (addf (addf (Host.dotGeneral dot_S100000x128_S128x64_S100000x64_1_0_0_1_n_n none mean wl)
      (Host.dotGeneral dot_S100000x128_S128x64_S100000x64_1_0_0_1_n_n none x wr))
    (broadcastInDim S100000x64 ![0, 1] bcast_S1x64_S100000x64_0_1 (broadcastInDim S1x64 ![1] bcast_S64_S1x64_1 b)))

/-- The reference's dense stage of the `64 → 128` layer, on whole arrays. -/
def layer_64_128 (mean x : FVec Ideal S100000x64 .f32) (wl wr : FVec Ideal S64x128 .f32) (b : FVec Ideal S128 .f32) :
    FVec Ideal S100000x128 .f32 :=
  Host.tanh (addf (addf (Host.dotGeneral dot_S100000x64_S64x128_S100000x128_1_0_0_1_n_n none mean wl)
      (Host.dotGeneral dot_S100000x64_S64x128_S100000x128_1_0_0_1_n_n none x wr))
    (broadcastInDim S100000x128 ![0, 1] bcast_S1x128_S100000x128_0_1 (broadcastInDim S1x128 ![1] bcast_S128_S1x128_1 b)))

/-- The reference's closing linear map, on whole arrays. -/
def linear (h : FVec Ideal S100000x64 .f32) (w : FVec Ideal S64x10 .f32) (b : FVec Ideal S10 .f32) :
    FVec Ideal S100000x10 .f32 :=
  addf (Host.dotGeneral dot_S100000x64_S64x10_S100000x10_1_0_0_1_n_n none h w)
    (broadcastInDim S100000x10 ![0, 1] bcast_S1x10_S100000x10_0_1 (broadcastInDim S1x10 ![1] bcast_S10_S1x10_1 b))

/-- The bias row of a `128 → 64` layer, broadcast to one row and then down all rows, reads `b q` at `(p, q)`: the first
    broadcast drops the row coordinate (the operand's row axis has one entry), the second keeps the column. -/
private theorem bias_64 (b : FVec Ideal S64 .f32) (p : Fin 100000) (q : Fin 64) :
    broadcastInDim S100000x64 ![0, 1] bcast_S1x64_S100000x64_0_1 (broadcastInDim S1x64 ![1] bcast_S64_S1x64_1 b) (ix2 p q)
      = b (ix1 q) := by
  refine (broadcastInDim_apply _ _ _ (ix2 p q) (ix2 (0 : Fin 1) q) ?_).trans ?_
  · intro a
    match a with
    | ⟨0, _⟩ => rfl
    | ⟨1, _⟩ => rfl
  · refine broadcastInDim_apply _ _ _ (ix2 (0 : Fin 1) q) (ix1 q) ?_
    intro a
    match a with
    | ⟨0, _⟩ => rfl

/-- The same for the `64 → 128` layer's bias row. -/
private theorem bias_128 (b : FVec Ideal S128 .f32) (p : Fin 100000) (q : Fin 128) :
    broadcastInDim S100000x128 ![0, 1] bcast_S1x128_S100000x128_0_1 (broadcastInDim S1x128 ![1] bcast_S128_S1x128_1 b) (ix2 p q)
      = b (ix1 q) := by
  refine (broadcastInDim_apply _ _ _ (ix2 p q) (ix2 (0 : Fin 1) q) ?_).trans ?_
  · intro a
    match a with
    | ⟨0, _⟩ => rfl
    | ⟨1, _⟩ => rfl
  · refine broadcastInDim_apply _ _ _ (ix2 (0 : Fin 1) q) (ix1 q) ?_
    intro a
    match a with
    | ⟨0, _⟩ => rfl

/-- The same for the closing map's bias row. -/
private theorem bias_10 (b : FVec Ideal S10 .f32) (p : Fin 100000) (q : Fin 10) :
    broadcastInDim S100000x10 ![0, 1] bcast_S1x10_S100000x10_0_1 (broadcastInDim S1x10 ![1] bcast_S10_S1x10_1 b) (ix2 p q)
      = b (ix1 q) := by
  refine (broadcastInDim_apply _ _ _ (ix2 p q) (ix2 (0 : Fin 1) q) ?_).trans ?_
  · intro a
    match a with
    | ⟨0, _⟩ => rfl
    | ⟨1, _⟩ => rfl
  · refine broadcastInDim_apply _ _ _ (ix2 (0 : Fin 1) q) (ix1 q) ?_
    intro a
    match a with
    | ⟨0, _⟩ => rfl

theorem layer_128_64_eq (mean x : FVec Ideal S100000x128 .f32) (wl wr : FVec Ideal S128x64 .f32) (b : FVec Ideal S64 .f32) :
    layer_128_64 mean x wl wr b = dense mean x wl wr (fun q => b (ix1 q)) := by
  funext i
  obtain ⟨p, q, rfl⟩ : ∃ (p : Fin 100000) (q : Fin 64), i = ix2 p q := ⟨i 0, i 1, eq_ix2 i⟩
  -- entry `(p, q)`: `tanh` of the two products' entries plus the bias entry
  show Ideal.tanh ((Host.dotGeneral dot_S100000x128_S128x64_S100000x64_1_0_0_1_n_n none mean wl (ix2 p q)
      + Host.dotGeneral dot_S100000x128_S128x64_S100000x64_1_0_0_1_n_n none x wr (ix2 p q))
      + broadcastInDim S100000x64 ![0, 1] bcast_S1x64_S100000x64_0_1 (broadcastInDim S1x64 ![1] bcast_S64_S1x64_1 b) (ix2 p q))
    = denseAt mean x wl wr (fun q => b (ix1 q)) p q
  refine congrArg Ideal.tanh (congrArg₂ (· + ·) (congrArg₂ (· + ·) ?_ ?_) ?_)
  · exact Cert.Lib.PlainMatmul.dotGeneral_apply dot_S100000x128_S128x64_S100000x64_1_0_0_1_n_n rfl rfl rfl rfl rfl rfl
      none _ mean wl p q
  · exact Cert.Lib.PlainMatmul.dotGeneral_apply dot_S100000x128_S128x64_S100000x64_1_0_0_1_n_n rfl rfl rfl rfl rfl rfl
      none _ x wr p q
  · exact bias_64 b p q

theorem layer_64_128_eq (mean x : FVec Ideal S100000x64 .f32) (wl wr : FVec Ideal S64x128 .f32) (b : FVec Ideal S128 .f32) :
    layer_64_128 mean x wl wr b = dense mean x wl wr (fun q => b (ix1 q)) := by
  funext i
  obtain ⟨p, q, rfl⟩ : ∃ (p : Fin 100000) (q : Fin 128), i = ix2 p q := ⟨i 0, i 1, eq_ix2 i⟩
  -- entry `(p, q)`: `tanh` of the two products' entries plus the bias entry
  show Ideal.tanh ((Host.dotGeneral dot_S100000x64_S64x128_S100000x128_1_0_0_1_n_n none mean wl (ix2 p q)
      + Host.dotGeneral dot_S100000x64_S64x128_S100000x128_1_0_0_1_n_n none x wr (ix2 p q))
      + broadcastInDim S100000x128 ![0, 1] bcast_S1x128_S100000x128_0_1 (broadcastInDim S1x128 ![1] bcast_S128_S1x128_1 b) (ix2 p q))
    = denseAt mean x wl wr (fun q => b (ix1 q)) p q
  refine congrArg Ideal.tanh (congrArg₂ (· + ·) (congrArg₂ (· + ·) ?_ ?_) ?_)
  · exact Cert.Lib.PlainMatmul.dotGeneral_apply dot_S100000x64_S64x128_S100000x128_1_0_0_1_n_n rfl rfl rfl rfl rfl rfl
      none _ mean wl p q
  · exact Cert.Lib.PlainMatmul.dotGeneral_apply dot_S100000x64_S64x128_S100000x128_1_0_0_1_n_n rfl rfl rfl rfl rfl rfl
      none _ x wr p q
  · exact bias_128 b p q

theorem linear_eq (h : FVec Ideal S100000x64 .f32) (w : FVec Ideal S64x10 .f32) (b : FVec Ideal S10 .f32) :
    linear h w b = lin h w (fun q => b (ix1 q)) := by
  funext i
  obtain ⟨p, q, rfl⟩ : ∃ (p : Fin 100000) (q : Fin 10), i = ix2 p q := ⟨i 0, i 1, eq_ix2 i⟩
  -- entry `(p, q)`: the product's entry plus the bias entry
  show Host.dotGeneral dot_S100000x64_S64x10_S100000x10_1_0_0_1_n_n none h w (ix2 p q)
      + broadcastInDim S100000x10 ![0, 1] bcast_S1x10_S100000x10_0_1 (broadcastInDim S1x10 ![1] bcast_S10_S1x10_1 b) (ix2 p q)
    = linAt h w (fun q => b (ix1 q)) p q
  refine congrArg₂ (· + ·) ?_ ?_
  · exact Cert.Lib.PlainMatmul.dotGeneral_apply dot_S100000x64_S64x10_S100000x10_1_0_0_1_n_n rfl rfl rfl rfl rfl rfl
      none _ h w p q
  · exact bias_10 b p q

end Cert.Sage.Ref

end
-- ==== Proof.RefSide.lean ====
/-
  The reference's run, read back in stages.

  The reference applies, three times, the mean aggregation followed by a layer's dense stage, and then the closing
  linear map. Its run ends with the result array at the composition of those whole-array stages applied to the
  argument arrays, and with the arguments unchanged.
-/
import proofs.«414861_j15625091022994_1_alg».proof.Proof.Gen.ReferenceIdeal.Run
import proofs.«414861_j15625091022994_1_alg».proof.Proof.RefDense
import proofs.«414861_j15625091022994_1_alg».proof.Proof.HostFns

set_option maxRecDepth 16384

noncomputable section

namespace Cert.Sage.RefSide

open Idealize.ShloMosaic Idealize.ShloMosaic.TcCoe Idealize.SL.Sem
open Cert.ReferenceIdeal Cert.ReferenceIdeal.Gen

/-- The three hidden layers and the output of the network, as whole-array stages of the argument arrays. -/
def hidden1 (x : FVec Ideal S100000x128 .f32) (e : IVec S2x1600000 32) (w1l w1r : FVec Ideal S128x64 .f32)
    (b1 : FVec Ideal S64 .f32) : FVec Ideal S100000x64 .f32 :=
  Ref.layer_128_64 (R.mean128 x e) x w1l w1r b1

def hidden2 (h1 : FVec Ideal S100000x64 .f32) (e : IVec S2x1600000 32) (w2l w2r : FVec Ideal S64x128 .f32)
    (b2 : FVec Ideal S128 .f32) : FVec Ideal S100000x128 .f32 :=
  Ref.layer_64_128 (R.mean64 h1 e) h1 w2l w2r b2

def output (h2 : FVec Ideal S100000x128 .f32) (e : IVec S2x1600000 32) (w3l w3r : FVec Ideal S128x64 .f32)
    (b3 : FVec Ideal S64 .f32) (wlin : FVec Ideal S64x10 .f32) (blin : FVec Ideal S10 .f32) : FVec Ideal S100000x10 .f32 :=
  Ref.linear (Ref.layer_128_64 (R.mean128 h2 e) h2 w3l w3r b3) wlin blin

/-- The network on the argument arrays of a memory. -/
def net (m : (ℓ : Loc nD τ sig) → Buf (Elt Ideal) ℓ) (c : Dev nD) : FVec Ideal S100000x10 .f32 :=
  output
    (hidden2
      (hidden1 (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)))
      (m ((c.tc : Thread nD τ).loc main_arg1)) (m ((c.tc : Thread nD τ).loc main_arg5)) (m ((c.tc : Thread nD τ).loc main_arg6))
      (m ((c.tc : Thread nD τ).loc main_arg7)))
    (m ((c.tc : Thread nD τ).loc main_arg1)) (m ((c.tc : Thread nD τ).loc main_arg8)) (m ((c.tc : Thread nD τ).loc main_arg9))
    (m ((c.tc : Thread nD τ).loc main_arg10)) (m ((c.tc : Thread nD τ).loc main_arg11)) (m ((c.tc : Thread nD τ).loc main_arg12))

/-- The run's composed term is the network: the same operations, grouped. -/
theorem res_eq_net (m : (ℓ : Loc nD τ sig) → Buf (Elt Ideal) ℓ) (c : Dev nD) :
    Cert.ReferenceIdeal.Value.res_main_v85 (F := Ideal) m c = net m c := by
  unfold Cert.ReferenceIdeal.Value.res_main_v85 net output hidden2 hidden1 Ref.linear Ref.layer_128_64 Ref.layer_64_128
    R.mean128 R.mean64 R.degMax
  rfl

end Cert.Sage.RefSide

end
-- ==== Proof.Mean.lean ====
/-
  The two spellings of the mean aggregation agree where every source word is in range.

  With every source word in `[-100000, 100000)` the in-range test is true at every edge, so the guarded rows are the
  gathered rows and both programs scatter-add the same rows along the same destination words. What remains is the
  scaling: `a · (1 / y) = a / y` for `y = max (deg i) 1`, which is at least one and so not zero; `1 / y` is `y⁻¹` off
  zero, at the infinities too, so the law needs no finiteness.
-/
import proofs.«414861_j15625091022994_1_alg».proof.Proof.HostFns
import proofs.«414861_j15625091022994_1_alg».proof.Proof.Spec
import Idealize.ShloMosaic.Lib.ValueIdx
import Idealize.ShloMosaic.Lib.IdealHost

noncomputable section

namespace Cert.Sage

open Idealize.ShloMosaic Idealize.ShloMosaic.ValueIdx

/-! ## Helpers: the array of ones, and scaling by a reciprocal read through one index map -/

/-- The scalar one broadcast to any shape reads one everywhere. -/
private theorem ones_apply {T : Shape} (hb : (⟨0, ![]⟩ : Shape).BroadcastsInDim T ![]) (k : T.Idx) :
    broadcastInDim T ![] hb (constant (F := Ideal) ⟨0, ![]⟩ .f32 0x3F800000#32) k = 1 := by
  rw [broadcastInDim_scalar_apply, constant_apply, Ideal.ofBits_one_f32]

/-- Scaling each entry by the reciprocal of a nonzero weight is dividing by the weight, when the reciprocal array
    `one / M` and the weight array `M` are read at the same index `g i`. -/
private theorem mul_recip_eq_div {s t : Shape} (A : FVec Ideal t .f32) (one M : FVec Ideal s .f32) (g : t.Idx → s.Idx)
    (hone : ∀ k, one k = 1) (hM : ∀ k, M k ≠ 0) :
    mulf A (fun i => Host.divf one M (g i)) = Host.divf A (fun i => M (g i)) := by
  funext i
  rw [mulf_apply, hostDivf_apply, hostDivf_apply, hone, mul_one_div _ _ (hM _)]

theorem mean128_eq (h : FVec Ideal Cert.KernelIdeal.S100000x128 .f32) (e : IVec Cert.KernelIdeal.S2x1600000 32)
    (hr : Src.InRange (Src.srcRow e)) :
    K.mean128 h (Src.srcRow e) (K.dstRow e) (K.invDeg (K.dstRow e)) = R.mean128 h e := by
  unfold K.mean128 R.mean128 K.invDeg R.degMax
  -- every source word is in range, so the guarded rows are the gathered rows
  rw [Src.guard_128 (Src.srcRow e) hr]
  -- both programs scatter-add the same rows along the same words and count the same degrees; only the scaling differs
  exact mul_recip_eq_div _ _ _ _ (fun k => ones_apply _ k)
    (fun k => by rw [maximumf_apply, ones_apply]; exact max_one_ne_zero _)

theorem mean64_eq (h : FVec Ideal Cert.KernelIdeal.S100000x64 .f32) (e : IVec Cert.KernelIdeal.S2x1600000 32)
    (hr : Src.InRange (Src.srcRow e)) :
    K.mean64 h (Src.srcRow e) (K.dstRow e) (K.invDeg (K.dstRow e)) = R.mean64 h e := by
  unfold K.mean64 R.mean64 K.invDeg R.degMax
  -- every source word is in range, so the guarded rows are the gathered rows
  rw [Src.guard_64 (Src.srcRow e) hr]
  -- both programs scatter-add the same rows along the same words and count the same degrees; only the scaling differs
  exact mul_recip_eq_div _ _ _ _ (fun k => ones_apply _ k)
    (fun k => by rw [maximumf_apply, ones_apply]; exact max_one_ne_zero _)

end Cert.Sage

end
-- ==== Proof.Bridge.lean ====
/-
  The two programs compute one network where every source word is in range.

  Layer by layer: the guarded mean aggregation multiplied by the reciprocal degree is the plain aggregation divided by
  the clamped degree (the in-range test is true at every edge; `a · (1 / y) = a / y` for `y ≥ 1`); the tiled dense stage
  and the whole-array dense stage have the same entries, the bias reshaped to a row and the bias broadcast down the
  rows both reading entry `q` at column `q`; and the closing linear map likewise.
-/
import proofs.«414861_j15625091022994_1_alg».proof.Proof.KValue
import proofs.«414861_j15625091022994_1_alg».proof.Proof.RefSide
import proofs.«414861_j15625091022994_1_alg».proof.Proof.Mean
import Idealize.ShloMosaic.Lib.Pipeline.Value

set_option maxRecDepth 16384

noncomputable section

namespace Cert.Sage

open Idealize.ShloMosaic Idealize.ShloMosaic.ValueIdx

section Rows
open Cert.KernelIdeal Cert.KernelIdeal.Gen

/-- A 64-entry vector reshaped to one row reads, at column `q`, its entry `q`. -/
theorem row64 (b : FVec Ideal S64 .f32) (q : Fin 64) : shapeCast S1x64 b shapeCasts_S64_S1x64 (ix2 (0 : Fin 1) q) = b (ix1 q) :=
  shapeCast_apply b shapeCasts_S64_S1x64 (ix2 (0 : Fin 1) q) (ix1 q) (by
    rw [Shape.rowMajor_val_one, Shape.rowMajor_val_two]; show q.val = 0 * 64 + q.val; omega)

/-- A 128-entry vector reshaped to one row reads, at column `q`, its entry `q`. -/
theorem row128 (b : FVec Ideal S128 .f32) (q : Fin 128) : shapeCast S1x128 b shapeCasts_S128_S1x128 (ix2 (0 : Fin 1) q) = b (ix1 q) :=
  shapeCast_apply b shapeCasts_S128_S1x128 (ix2 (0 : Fin 1) q) (ix1 q) (by
    rw [Shape.rowMajor_val_one, Shape.rowMajor_val_two]; show q.val = 0 * 128 + q.val; omega)

/-- A 10-entry vector reshaped to one row reads, at column `q`, its entry `q`. -/
theorem row10 (b : FVec Ideal S10 .f32) (q : Fin 10) : shapeCast S1x10 b shapeCasts_S10_S1x10 (ix2 (0 : Fin 1) q) = b (ix1 q) :=
  shapeCast_apply b shapeCasts_S10_S1x10 (ix2 (0 : Fin 1) q) (ix1 q) (by
    rw [Shape.rowMajor_val_one, Shape.rowMajor_val_two]; show q.val = 0 * 10 + q.val; omega)

end Rows

open Cert.KernelIdeal in
/-- The first hidden layer: one array in both programs. -/
theorem hidden1_eq (x : FVec Ideal S100000x128 .f32) (e : IVec S2x1600000 32) (w1l w1r : FVec Ideal S128x64 .f32)
    (b1 : FVec Ideal S64 .f32) (hr : Src.InRange (Src.srcRow e)) :
    KNet.hidden1 x e w1l w1r b1 = RefSide.hidden1 x e w1l w1r b1 := by
  unfold KNet.hidden1 RefSide.hidden1
  rw [Ref.layer_128_64_eq, mean128_eq x e hr]
  exact congrArg (dense _ _ _ _) (funext fun q => row64 b1 q)

open Cert.KernelIdeal in
/-- The second hidden layer: one array in both programs. -/
theorem hidden2_eq (h1 : FVec Ideal S100000x64 .f32) (e : IVec S2x1600000 32) (w2l w2r : FVec Ideal S64x128 .f32)
    (b2 : FVec Ideal S128 .f32) (hr : Src.InRange (Src.srcRow e)) :
    KNet.hidden2 h1 e w2l w2r b2 = RefSide.hidden2 h1 e w2l w2r b2 := by
  unfold KNet.hidden2 RefSide.hidden2
  rw [Ref.layer_64_128_eq, mean64_eq h1 e hr]
  exact congrArg (dense _ _ _ _) (funext fun q => row128 b2 q)

open Cert.KernelIdeal in
/-- The third hidden layer and the closing linear map: one array in both programs. -/
theorem output_eq (h2 : FVec Ideal S100000x128 .f32) (e : IVec S2x1600000 32) (w3l w3r : FVec Ideal S128x64 .f32)
    (b3 : FVec Ideal S64 .f32) (wlin : FVec Ideal S64x10 .f32) (blin : FVec Ideal S10 .f32)
    (hr : Src.InRange (Src.srcRow e)) :
    KNet.output h2 e w3l w3r b3 wlin blin = RefSide.output h2 e w3l w3r b3 wlin blin := by
  unfold KNet.output RefSide.output
  rw [Ref.linear_eq, Ref.layer_128_64_eq, mean128_eq h2 e hr]
  have hb3 : (fun q : Fin 64 => shapeCast S1x64 b3 Cert.KernelIdeal.Gen.shapeCasts_S64_S1x64 (ix2 (0 : Fin 1) q)) = fun q => b3 (ix1 q) :=
    funext fun q => row64 b3 q
  have hbl : (fun q : Fin 10 => shapeCast S1x10 blin Cert.KernelIdeal.Gen.shapeCasts_S10_S1x10 (ix2 (0 : Fin 1) q)) = fun q => blin (ix1 q) :=
    funext fun q => row10 blin q
  rw [hb3, hbl]

end Cert.Sage

end
-- ==== Proof.lean ====
/-
  A three-layer GraphSAGE network: three tiled dense stages fed by host-side mean aggregations, against the
  whole-array reference.

  Each layer takes the mean of the neighbours' features along the edge list (gather the source rows, scatter-add
  them at the destination rows, divide by the clamped in-degree) and applies `tanh (mean · Wl + x · Wr + b)`; a
  closing linear map follows the third layer. The kernel's program does the aggregation on the host, with gathered
  rows guarded by an in-range test of the source word and a reciprocal degree computed once, and runs each dense
  stage (the last fused with the closing map) as a pallas_call over 20 blocks of 5000 rows. The reference does
  everything on whole arrays. The precondition says that every float input is finite and that every source word of
  the edge list lies in `[-100000, 100000)`, the range in which the reference's own row indexing is in bounds; only
  the second part is used: then the guard is true at every edge, `a · (1 / y) = a / y` for the clamped degree
  `y ≥ 1` on all extended reals, and block `t` of a tiled dense stage is rows `[5000 t, 5000 t + 5000)` of the
  whole-array one, so the two results agree entry by entry.

  The three frames are the generated ones (the reference's from its generated run); the kernel's result array is
  read off the same run (module KRun), then stage by stage (modules KHost*, Dense*, KValue); the reference's result
  is its generated run's term regrouped (RefSide); Bridge joins the two.
-/
import proofs.«414861_j15625091022994_1_alg».proof.Defs
import proofs.«414861_j15625091022994_1_alg».proof.Proof.Gen.Kernel
import proofs.«414861_j15625091022994_1_alg».proof.Proof.Gen.Kernel.Skeleton
import proofs.«414861_j15625091022994_1_alg».proof.Proof.Gen.Kernel.Launch
import proofs.«414861_j15625091022994_1_alg».proof.Proof.Gen.Kernel.Points
import proofs.«414861_j15625091022994_1_alg».proof.Proof.Gen.Kernel.Frame
import proofs.«414861_j15625091022994_1_alg».proof.Proof.Gen.KernelIdeal
import proofs.«414861_j15625091022994_1_alg».proof.Proof.Gen.KernelIdeal.Skeleton
import proofs.«414861_j15625091022994_1_alg».proof.Proof.Gen.KernelIdeal.Launch
import proofs.«414861_j15625091022994_1_alg».proof.Proof.Gen.KernelIdeal.Points
import proofs.«414861_j15625091022994_1_alg».proof.Proof.Gen.KernelIdeal.Frame
import proofs.«414861_j15625091022994_1_alg».proof.Proof.Gen.ReferenceIdeal
import proofs.«414861_j15625091022994_1_alg».proof.Proof.Gen.ReferenceIdeal.Run
import proofs.«414861_j15625091022994_1_alg».proof.Proof.Gen.Pre_finite_inputs
import proofs.«414861_j15625091022994_1_alg».proof.Proof.KRun
import proofs.«414861_j15625091022994_1_alg».proof.Proof.KValue
import proofs.«414861_j15625091022994_1_alg».proof.Proof.RefSide
import proofs.«414861_j15625091022994_1_alg».proof.Proof.Bridge
import Idealize.ShloMosaic.Adequacy
import Idealize.ShloMosaic.Init

noncomputable section

namespace Cert.Proof

open Idealize.ShloMosaic Idealize.SL.Sem Cert.Sage

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network of the argument arrays in their result array: the kernel's program by
    reading its run stage by stage, the reference by regrouping its run's term, the two joined layer by layer under
    the source words' range. -/
theorem algebraic : Cert.algebraic_KernelIdeal_ReferenceIdeal := by
  intro m ρ m' ρ' hpre hagree
  refine ⟨fun c => KNet.net m c, ?_, ?_⟩
  · exact (θ_run Cert.KernelIdeal.defs _ _).mono
      (fun r h c => ⟨(h c).1.trans (KNet.value m ρ c), (h c).2⟩)
      (Cert.KernelIdeal.RunValued.run_valued (F := Ideal) m ρ)
  · refine (θ_run Cert.ReferenceIdeal.defs _ _).mono (fun r h c => ⟨(h c).1.trans ?_, (h c).2⟩)
      (Cert.ReferenceIdeal.Value.run (F := Ideal) m' ρ')
    have hr := Src.inRange_of_pre m hpre c
    obtain ⟨e0, e1, e2, e3, e4, e5, e6, e7, e8, e9, e10, e11, e12⟩ := hagree c
    show Cert.ReferenceIdeal.Value.res_main_v85 (F := Ideal) m' c = KNet.net m c
    rw [RefSide.res_eq_net]
    unfold RefSide.net KNet.net
    rw [e0, e1, e2, e3, e4, e5, e6, e7, e8, e9, e10, e11, e12]
    rw [hidden1_eq _ _ _ _ _ hr, hidden2_eq _ _ _ _ _ hr, output_eq _ _ _ _ _ _ _ hr]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
